-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x800000 32 := broadcastInDim S2x800000 ![] bcast_S_S2x800000 main_c_8
  let main_v25 : IVec S2x800000 1 := cmpi .sge main_arg1 main_v24
  let main_c_9 : IVec S_ 32 := constantI S_ 32 50000#32
  let main_v26 : IVec S2x800000 32 := broadcastInDim S2x800000 ![] bcast_S_S2x800000 main_c_9
  let main_v27 : IVec S2x800000 1 := cmpi .slt main_arg1 main_v26
  let main_v28 : IVec S2x800000 1 := andi main_v25 main_v27
  let main_c_10 : IVec S_ 1 := constantI S_ 1 1#1
  let main_v29 : IVec S_ 1 := (fun x v => Host.reduce IntOp.andi x v reducesTo_S2x800000_S_d0_1 h_S_) main_v28 main_c_10
  let main_v30 : IVec S_ 1 := andi main_v23 main_v29
  main_v30

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 61
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S1, .i32⟩
  | .hbm, ⟨45, _⟩ => ⟨S_, .i32⟩
  | .hbm, ⟨46, _⟩ => ⟨S800000x1, .i32⟩
  | .hbm, ⟨47, _⟩ => ⟨S800000x1, .i1⟩
  | .hbm, ⟨48, _⟩ => ⟨S1x1, .i32⟩
  | .hbm, ⟨49, _⟩ => ⟨S800000x1, .i32⟩
  | .hbm, ⟨50, _⟩ => ⟨S800000x1, .i1⟩
  | .hbm, ⟨51, _⟩ => ⟨S800000x1, .i1⟩
  | .hbm, ⟨52, _⟩ => ⟨S_, .i1⟩
  | .hbm, ⟨53, _⟩ => ⟨S800000, .i1⟩
  | .hbm, ⟨54, _⟩ => ⟨S800000x128, .f32⟩
  | .hbm, ⟨55, _⟩ => ⟨S800000x128, .i1⟩
  | .hbm, ⟨56, _⟩ => ⟨S_, .f32⟩
  | .hbm, ⟨57, _⟩ => ⟨S800000x128, .f32⟩
  | .hbm, ⟨58, _⟩ => ⟨S800000x128, .f32⟩
  | .hbm, ⟨59, _⟩ => ⟨S800000x1, .f32⟩
  | .hbm, ⟨60, _⟩ => ⟨S800000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x1, .f32⟩
  | .local _ .vmem, ⟨13, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v7 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S128x128_S128x128_1_0 : S128x128.Transposes [1, 0] S128x128
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S800000x1_S800000 : S800000x1.ShapeCasts S800000
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S800000x1.size a
  hwx1_2 : ∀ i : grid1.Coords, EltTy.bits .f32 = 32 ∨ (Rect.block (s := S800000x1) S4000x1.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S128x128, .f32⟩
  | .hbm, ⟨20, _⟩ => ⟨S800000x128, .f32⟩
  | .hbm, ⟨21, _⟩ => ⟨S1x128, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S800000x128, .f32⟩
  | .hbm, ⟨26, _⟩ => ⟨S800000x128, .i1⟩
  | .hbm, ⟨27, _⟩ => ⟨S_, .f32⟩
  | .hbm, ⟨28, _⟩ => ⟨S800000x128, .f32⟩
  | .hbm, ⟨29, _⟩ => ⟨S800000x128, .i1⟩
  | .hbm, ⟨30, _⟩ => ⟨S_, .f32⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S128x128, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S128x128, .f32⟩
  | .hbm, ⟨54, _⟩ => ⟨S800000x128, .f32⟩
  | .hbm, ⟨55, _⟩ => ⟨S1x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x128, .f32⟩
  | .hbm, ⟨60, _⟩ => ⟨S800000x128, .i1⟩
  | .hbm, ⟨61, _⟩ => ⟨S_, .f32⟩
  | .hbm, ⟨62, _⟩ => ⟨S800000x128, .f32⟩
  | .hbm, ⟨63, _⟩ => ⟨S800000x128, .i1⟩
  | .hbm, ⟨64, _⟩ => ⟨S_, .f32⟩
  | .hbm, ⟨65, _⟩ => ⟨S_, .f32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S800000x128, .f32⟩
  | .hbm, ⟨71, _⟩ => ⟨S800000x128, .f32⟩
  | .hbm, ⟨72, _⟩ => ⟨S800000x128, .f32⟩
  | .hbm, ⟨73, _⟩ => ⟨S128x128, .f32⟩
  | .hbm, ⟨74, _⟩ => ⟨S800000x128, .f32⟩
  | .hbm, ⟨75, _⟩ => ⟨S1x128, .f32⟩
  | .hbm, ⟨76, _⟩ => ⟨S800000x128, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S800000, .f32⟩
  | .hbm, ⟨81, _⟩ => ⟨S800000, .f32⟩
  | .hbm, ⟨82, _⟩ => ⟨S_, .f32⟩
  | .hbm, ⟨83, _⟩ => ⟨S800000, .f32⟩
  | .hbm, ⟨84, _⟩ => ⟨S800000, .f32⟩
  | .hbm, ⟨85, _⟩ => ⟨S800000x128, .f32⟩
  | .hbm, ⟨86, _⟩ => ⟨S_, .f32⟩
  | .hbm, ⟨87, _⟩ => ⟨S800000, .f32⟩
  | .hbm, ⟨88, _⟩ => ⟨S800000, .f32⟩
  | .hbm, ⟨89, _⟩ => ⟨S_, .f32⟩
  | .hbm, ⟨90, _⟩ => ⟨S800000, .f32⟩
  | .hbm, ⟨91, _⟩ => ⟨S800000, .f32⟩
  | .hbm, ⟨92, _⟩ => ⟨S800000x128, .f32⟩
  | .hbm, ⟨93, _⟩ => ⟨S_, .f32⟩
  | .hbm, ⟨94, _⟩ => ⟨S800000, .f32⟩
  | .hbm, ⟨95, _⟩ => ⟨S800000, .f32⟩
  | .hbm, ⟨96, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_cst_1 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_v4 : Ref sig .tc := ⟨.hbm, 33, rfl⟩
abbrev main_call0_v5 : Ref sig .tc := ⟨.hbm, 34, rfl⟩
abbrev main_call0_cst_2 : Ref sig .tc := ⟨.hbm, 35, rfl⟩
abbrev main_call0_v6 : Ref sig .tc := ⟨.hbm, 36, rfl⟩
abbrev main_call0_v7 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_1 : Ref sig .tc := ⟨.hbm, 44, rfl⟩
abbrev main_v22 : Ref sig .tc := ⟨.hbm, 45, rfl⟩
abbrev main_v23 : Ref sig .tc := ⟨.hbm, 46, rfl⟩
abbrev main_c_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_cst_1 : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_v4 : Ref sig .tc := ⟨.hbm, 67, rfl⟩
abbrev main_call1_v5 : Ref sig .tc := ⟨.hbm, 68, rfl⟩
abbrev main_call1_cst_2 : Ref sig .tc := ⟨.hbm, 69, rfl⟩
abbrev main_call1_v6 : Ref sig .tc := ⟨.hbm, 70, rfl⟩
abbrev main_call1_v7 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst : Ref sig .tc := ⟨.hbm, 79, rfl⟩
abbrev main_v41 : Ref sig .tc := ⟨.hbm, 80, rfl⟩
abbrev main_v42 : Ref sig .tc := ⟨.hbm, 81, rfl⟩
abbrev main_cst_3 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_4 : Ref sig .tc := ⟨.hbm, 86, rfl⟩
abbrev main_v46 : Ref sig .tc := ⟨.hbm, 87, rfl⟩
abbrev main_v47 : Ref sig .tc := ⟨.hbm, 88, rfl⟩
abbrev main_cst_5 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_6 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  reducesTo_S800000x128_S800000_d1 : S800000x128.ReducesTo [1] S800000
  h_S_ : 0 < S_.numel
  gather_S50000x128_S800000x1_S800000x128_1_0_n_n_0_1_1128_wf : GatherDims.WF S50000x128 S800000x1 S800000x128 [1] [0] [] [0] [] 1 ![1, 128]
  dot_S800000x128_S128x128_S800000x128_1_0_0_1_n_n_wf : DotDims.WF S800000x128 S128x128 S800000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf

class Facts : Prop extends Facts₀ where

variable [Facts]
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Spec.lean ====
/-
  The two programs as index-by-index functions on the extended reals.

  A node's feature row `x` (128 entries) goes through a linear layer, the ELU, and a second linear layer:
  `mlp x j = Σₖ elu (Σᵢ xᵢ · A i k + a k) · B k j + b j`, where `A`, `B` are the two weight matrices ALREADY
  transposed (both programs transpose them first, so the transposes stay opaque here).
  `nrm o = max (√ Σₖ oₖ²) ε` is the clamped length of a row.  The kernel first divides every row by its length
  and then takes the inner product of the two rows of an edge; the reference takes the inner product first and divides
  by the product of the two lengths.  For finite rows the two agree (`edge_eq`): the lengths are positive real numbers.
-/
import Idealize.ShloMosaic.PureOps.Ideal
import Idealize.ShloMosaic.PureOps.Ideal.Laws
import Idealize.ShloMosaic.Lib.ValueIdx
import proofs.«429688_j28192165331244_4_alg».proof.Proof.LibFinite

noncomputable section

namespace Cert.Spec

open Idealize.ShloMosaic Idealize.ShloMosaic.ValueIdx Cert.Fin
open scoped BigOperators

/-- The small positive constant both programs clamp a row's length with (the word nearest 1e-8). -/
def eps : EReal := Ideal.ofBits .f32 0x322BCC77#32

/-- One linear layer on a row: `(x · M + v) j`. -/
def lin (M : Fin 128 → Fin 128 → EReal) (v : Fin 128 → EReal) (x : Fin 128 → EReal) (j : Fin 128) : EReal :=
  (∑ k : Fin 128, x k * M k j) + v j

/-- The exponential linear unit: the identity above zero, `eᵃ − 1` otherwise. -/
def elu (a : EReal) : EReal := if 0 < a then a else Ideal.exp a - 1

/-- The two-layer perceptron on one row. -/
def mlp (A : Fin 128 → Fin 128 → EReal) (a : Fin 128 → EReal) (B : Fin 128 → Fin 128 → EReal) (b : Fin 128 → EReal)
    (x : Fin 128 → EReal) : Fin 128 → EReal :=
  lin B b (fun k => elu (lin A a x k))

/-- A row's Euclidean length, clamped from below by `eps`. -/
def nrm (o : Fin 128 → EReal) : EReal := max (Ideal.sqrt (∑ k : Fin 128, o k * o k)) eps

/-- A row divided by its clamped length. -/
def unit (o : Fin 128 → EReal) (j : Fin 128) : EReal := Ideal.div (o j) (nrm o)

/-- The kernel's value on one edge: the inner product of the two normalised rows. -/
def kernelEdge (o1 o2 : Fin 128 → EReal) : EReal := ∑ k : Fin 128, unit o1 k * unit o2 k

/-- The reference's value on one edge: the inner product over the product of the clamped lengths. -/
def refEdge (o1 o2 : Fin 128 → EReal) : EReal := Ideal.div (∑ k : Fin 128, o1 k * o2 k) (nrm o1 * nrm o2)

/-- Row `r` of an `n × 128` array. -/
def row {n : Nat} (x : (⟨2, ![n, 128]⟩ : Shape).Idx → EReal) (r : Fin n) : Fin 128 → EReal := fun k => x (ix2 r k)

/-- A 128 × 128 array as a function of its two coordinates. -/
def mat (w : (⟨2, ![128, 128]⟩ : Shape).Idx → EReal) : Fin 128 → Fin 128 → EReal := fun k j => w (ix2 k j)

/-- A 128-vector as a function of its coordinate. -/
def vec (v : (⟨1, ![128]⟩ : Shape).Idx → EReal) : Fin 128 → EReal := fun j => v (ix1 j)

/-- The node a 32-bit index word names (total: the word's value modulo the number of nodes; an in-range word names
    its own value, `node_val`). -/
def node (w : BitVec 32) : Fin 50000 := ⟨w.toNat % 50000, Nat.mod_lt _ (by norm_num)⟩

theorem node_val {w : BitVec 32} (h : w.toNat < 50000) : (node w).val = w.toNat := Nat.mod_eq_of_lt h

/-- The per-node table the kernel's first region builds: every node's perceptron output divided by its length. -/
def table (emb : (⟨2, ![50000, 128]⟩ : Shape).Idx → EReal) (A : (⟨2, ![128, 128]⟩ : Shape).Idx → EReal)
    (a : (⟨1, ![128]⟩ : Shape).Idx → EReal) (B : (⟨2, ![128, 128]⟩ : Shape).Idx → EReal)
    (b : (⟨1, ![128]⟩ : Shape).Idx → EReal) : (⟨2, ![50000, 128]⟩ : Shape).Idx → EReal :=
  fun i => unit (mlp (mat A) (vec a) (mat B) (vec b) (row emb (i 0))) (i 1)

/-- The kernel's second region on two gathered arrays: the row-wise inner product, kept as a column. -/
def cosArr (f1 f2 : (⟨2, ![800000, 128]⟩ : Shape).Idx → EReal) : (⟨2, ![800000, 1]⟩ : Shape).Idx → EReal :=
  fun i => ∑ k : Fin 128, f1 (ix2 (i 0) k) * f2 (ix2 (i 0) k)

/-- The perceptron output of the node that entry `(s, e)` of the edge list names (`s = 0`: source, `s = 1`: target). -/
def feat (emb : (⟨2, ![50000, 128]⟩ : Shape).Idx → EReal) (ei : (⟨2, ![2, 800000]⟩ : Shape).Idx → BitVec 32)
    (A : (⟨2, ![128, 128]⟩ : Shape).Idx → EReal) (a : (⟨1, ![128]⟩ : Shape).Idx → EReal)
    (B : (⟨2, ![128, 128]⟩ : Shape).Idx → EReal) (b : (⟨1, ![128]⟩ : Shape).Idx → EReal)
    (s : Fin 2) (e : Fin 800000) : Fin 128 → EReal :=
  mlp (mat A) (vec a) (mat B) (vec b) (row emb (node (ei (ix2 s e))))

/-- The kernel's result as one function of the argument arrays (the weights already transposed). -/
def kOut (emb : (⟨2, ![50000, 128]⟩ : Shape).Idx → EReal) (ei : (⟨2, ![2, 800000]⟩ : Shape).Idx → BitVec 32)
    (A : (⟨2, ![128, 128]⟩ : Shape).Idx → EReal) (a : (⟨1, ![128]⟩ : Shape).Idx → EReal)
    (B : (⟨2, ![128, 128]⟩ : Shape).Idx → EReal) (b : (⟨1, ![128]⟩ : Shape).Idx → EReal) :
    (⟨1, ![800000]⟩ : Shape).Idx → EReal :=
  fun i => kernelEdge (feat emb ei A a B b 0 (i 0)) (feat emb ei A a B b 1 (i 0))

/-- The reference's result as one function of the argument arrays (the weights already transposed). -/
def rOut (emb : (⟨2, ![50000, 128]⟩ : Shape).Idx → EReal) (ei : (⟨2, ![2, 800000]⟩ : Shape).Idx → BitVec 32)
    (A : (⟨2, ![128, 128]⟩ : Shape).Idx → EReal) (a : (⟨1, ![128]⟩ : Shape).Idx → EReal)
    (B : (⟨2, ![128, 128]⟩ : Shape).Idx → EReal) (b : (⟨1, ![128]⟩ : Shape).Idx → EReal) :
    (⟨1, ![800000]⟩ : Shape).Idx → EReal :=
  fun i => refEdge (feat emb ei A a B b 0 (i 0)) (feat emb ei A a B b 1 (i 0))

end Cert.Spec

end
-- ==== Proof.LibLayout.lean ====
/-
  General facts, at any extents, about rank-2 arrays read at an index `(i, j)`: a vector kept as a column
  (`[a] → [a, 1]` and back), a column broadcast along the rows' entries (`[a, 1] → [a, b]`), the sum of each row
  (the kernel's lane reduction and the host's reduce), and the plain matrix product `[m, K] × [K, n]` as the sum
  over `k` of `x (i, k) · w (k, j)` (the kernel's product into a zero accumulator and the host's `dot_general`).
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx
open scoped BigOperators

variable {α : Type}

/-- A vector kept as a column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) := by
  refine shapeCast_apply x h _ _ ?_
  have hu : u.val = 0 := by omega
  rw [Shape.rowMajor_val_two, Shape.rowMajor_val_one]
  show i.val = i.val * 1 + u.val
  rw [hu, Nat.mul_one, Nat.add_zero]

/-- A column flattened to a vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) := by
  refine shapeCast_apply x h _ _ ?_
  rw [Shape.rowMajor_val_two, Shape.rowMajor_val_one]
  show i.val * 1 + 0 = i.val
  rw [Nat.mul_one, Nat.add_zero]

/-- A column broadcast along each row reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector laid along the rows (`[b] → [1, b] → [a, b]`, the kernel's bias) reads, at `(i, j)`, the vector at `j`. -/
theorem broadcastTo_row_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (i : Fin a) (j : Fin b) :
    broadcastTo ⟨2, ![a, b]⟩ (shapeCast ⟨2, ![1, b]⟩ v h₁) h₂ (ix2 i j) = v (ix1 j) := by
  rw [broadcastTo_1b_ab_apply, shapeCast_a_1a_apply]

/-- The same bias as the host lays it (`broadcast_in_dim` twice). -/
theorem broadcastInDim_row_apply {a b : ℕ} (v : (⟨1, ![b]⟩ : Shape).Idx → α)
    (h₁ : (⟨1, ![b]⟩ : Shape).BroadcastsInDim ⟨2, ![1, b]⟩ ![1])
    (h₂ : (⟨2, ![1, b]⟩ : Shape).BroadcastsInDim ⟨2, ![a, b]⟩ ![0, 1]) (i : Fin a) (j : Fin b) :
    broadcastInDim ⟨2, ![a, b]⟩ ![0, 1] h₂ (broadcastInDim ⟨2, ![1, b]⟩ ![1] h₁ v) (ix2 i j) = v (ix1 j) := by
  have key : ∀ q : Fin b, q.val = if b = 1 then 0 else q.val := fun q => by
    split
    · have := q.isLt; omega
    · rfl
  refine (broadcastInDim_apply ![0, 1] h₂ _ (ix2 i j) (ix2 (0 : Fin 1) j) fun ax => ?_).trans
    (broadcastInDim_apply ![1] h₁ v (ix2 (0 : Fin 1) j) (ix1 j) fun ax => ?_)
  · match ax with
    | ⟨0, _⟩ => rfl
    | ⟨1, _⟩ => exact key j
  · match ax with
    | ⟨0, _⟩ => exact key j

/-- The source index a row sum inserts coordinate `k` into, over the result index `i`, is `(i, k)`. -/
theorem lift_rows {a b : ℕ} (h : (⟨2, ![a, b]⟩ : Shape).Reduces [1] ⟨1, ![a]⟩) (i : Fin a) (k : Fin b) :
    h.lift (ix1 i) k = ix2 i k := by
  funext c
  apply Fin.ext
  show h.liftVal (ix1 i) k.val c = (ix2 i k c).val
  match c with
  | ⟨0, _⟩ => rfl
  | ⟨1, _⟩ => rfl

/-- The kernel's sum along each row, at the extended reals: at `i` the sum over `k` of the entries `(i, k)`. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single src acc h hφ hacc (ix1 i)]
  show ∑ k : Fin b, src (h.lift (ix1 i) k) = ∑ k : Fin b, src (ix2 i k)
  exact Finset.sum_congr rfl fun k _ => congrArg src (lift_rows h i k)

/-- The host's sum along each row from an initial value: at `i` the initial value plus the sum over `k`. -/
theorem hostReduceAdd_rows {a b : ℕ} {φ : FTy} (x : FVec Ideal ⟨2, ![a, b]⟩ φ) (init : FVec Ideal ⟨0, ![]⟩ φ)
    (h : (⟨2, ![a, b]⟩ : Shape).ReducesTo [1] ⟨1, ![a]⟩) (hu : 0 < (⟨0, ![]⟩ : Shape).numel) (i : Fin a) :
    Host.reduceAdd x init h hu (ix1 i) = init ix0 + ∑ k : Fin b, x (ix2 i k) := by
  have hR : (⟨2, ![a, b]⟩ : Shape).Reduces [1] ⟨1, ![a]⟩ := ⟨h.1, Nat.one_pos, h.2⟩
  show Ideal.hostReduceAdd h x (init (Shape.Idx.first hu)) (ix1 i) = _
  rw [Ideal.hostReduceAdd_single h hR x _ (ix1 i), eq_ix0 (Shape.Idx.first hu)]
  show init ix0 + ∑ k : Fin b, x (hR.lift (ix1 i) k) = init ix0 + ∑ k : Fin b, x (ix2 i k)
  exact congrArg (init ix0 + ·) (Finset.sum_congr rfl fun k _ => congrArg x (lift_rows hR i k))

/-- The sum over the one contracted axis of a plain product `[m, K] × [K, n]`, re-indexed by that axis's coordinate:
    at `(i, j)` and `k` the left operand is read at `(i, k)` and the right one at `(k, j)`. The dimension numbers fix the
    record, so the four coordinates compute. -/
theorem plain_sum {m K n : ℕ} {φ₁ φ₂ : FTy} (d : DotDims ⟨2, ![m, K]⟩ ⟨2, ![K, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![m, K]⟩ φ₁) (w : FVec Ideal ⟨2, ![K, n]⟩ φ₂) (i : Fin m) (j : Fin n) :
    ∑ k : d.contr.Idx, x (d.lhsIdx (ix2 i j) k) * w (d.rhsIdx (ix2 i j) k) = ∑ k : Fin K, x (ix2 i k) * w (ix2 k j) := by
  cases d with
  | mk lc rc ln rn lb rb wf =>
    dsimp only at hlc hrc hln hrn hlb hrb
    subst hlc hrc hln hrn hlb hrb
    rw [← Equiv.sum_comp (contrEquiv1 (⟨[1], [0], [0], [1], [], [], wf⟩ : DotDims _ _ _) K rfl rfl).symm]
    refine Finset.sum_congr rfl fun k _ => ?_
    have hl : (⟨[1], [0], [0], [1], [], [], wf⟩ : DotDims ⟨2, ![m, K]⟩ ⟨2, ![K, n]⟩ ⟨2, ![m, n]⟩).lhsIdx (ix2 i j)
        ((contrEquiv1 _ K rfl rfl).symm k) = ix2 i k := by
      funext c
      apply Fin.ext
      match c with
      | ⟨0, _⟩ => rfl
      | ⟨1, _⟩ => rfl
    have hr : (⟨[1], [0], [0], [1], [], [], wf⟩ : DotDims ⟨2, ![m, K]⟩ ⟨2, ![K, n]⟩ ⟨2, ![m, n]⟩).rhsIdx (ix2 i j)
        ((contrEquiv1 _ K rfl rfl).symm k) = ix2 k j := by
      funext c
      apply Fin.ext
      match c with
      | ⟨0, _⟩ => rfl
      | ⟨1, _⟩ => rfl
    rw [hl, hr]

/-- The kernel's plain matrix product into the zero accumulator, read at `(i, j)`. The hypotheses are the printed
    dimension numbers, each closed by `rfl` at a use. -/
theorem matmul_plain_apply {m K n : ℕ} {φ₁ φ₂ : FTy} (d : DotDims ⟨2, ![m, K]⟩ ⟨2, ![K, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![m, K]⟩ φ₁) (w : FVec Ideal ⟨2, ![K, n]⟩ φ₂)
    (i : Fin m) (j : Fin n) :
    matmul d prec x w (constant ⟨2, ![m, n]⟩ .f32 0x00000000#32) (ix2 i j) = ∑ k : Fin K, x (ix2 i k) * w (ix2 k j) := by
  exact (Ideal.matmul_constant_zero_apply d prec x w (ix2 i j)).trans (plain_sum d hlc hrc hln hrn hlb hrb x w i j)

/-- The host's `dot_general` of the same dimension numbers, read at `(i, j)`: the same sum. -/
theorem dotGeneral_plain_apply {m K n : ℕ} {φ₁ φ₂ : FTy} (d : DotDims ⟨2, ![m, K]⟩ ⟨2, ![K, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![m, K]⟩ φ₁) (w : FVec Ideal ⟨2, ![K, n]⟩ φ₂)
    (i : Fin m) (j : Fin n) :
    Host.dotGeneral d prec x w (ix2 i j) = ∑ k : Fin K, x (ix2 i k) * w (ix2 k j) := by
  exact (Ideal.dotGeneral_apply d prec .single x w (ix2 i j)).trans (plain_sum d hlc hrc hln hrn hlb hrb x w i j)

end Cert.Layout

end
-- ==== Proof.KHost.lean ====
/-
  The host operations around the two regions of the kernel program: before the first region the two weight matrices
  are transposed and the two rows of the edge list are cut out and flattened; after the second region the output
  column is flattened.  Each is read here as a function of the buffers it starts from.
-/
import proofs.«429688_j28192165331244_4_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.ShloMosaic.ValueIdx Idealize.SL.Sem

variable (W : Valuation τ sig (Elt Ideal))

/-- The first weight matrix, transposed. -/
theorem host0_v0 :
    (StableHlo.after hostOps0 W (Proc.devRef .tc main_v0) : FVec Ideal S128x128 .f32)
      = transpose S128x128 [1, 0] (W (Proc.devRef .tc main_arg2) : FVec Ideal S128x128 .f32) transposes_S128x128_S128x128_1_0 := by
  dsimp only [hostOps0]; after_results

/-- The second weight matrix, transposed. -/
theorem host0_v1 :
    (StableHlo.after hostOps0 W (Proc.devRef .tc main_v1) : FVec Ideal S128x128 .f32)
      = transpose S128x128 [1, 0] (W (Proc.devRef .tc main_arg4) : FVec Ideal S128x128 .f32) transposes_S128x128_S128x128_1_0 := by
  dsimp only [hostOps0]; after_results

/-- The source indices: row 0 of the edge list, flattened. -/
theorem host0_v3_term :
    (StableHlo.after hostOps0 W (Proc.devRef .tc main_v3) : IVec S800000 32)
      = shapeCast S800000 (extractStridedSlice S1x800000 ![0, 0] (W (Proc.devRef .tc main_arg1) : IVec S2x800000 32) slices_S2x800000_S1x800000_0_0) shapeCasts_S1x800000_S800000 := by
  dsimp only [hostOps0]; after_results; rfl

/-- The target indices: row 1 of the edge list, flattened. -/
theorem host0_v5_term :
    (StableHlo.after hostOps0 W (Proc.devRef .tc main_v5) : IVec S800000 32)
      = shapeCast S800000 (extractStridedSlice S1x800000 ![1, 0] (W (Proc.devRef .tc main_arg1) : IVec S2x800000 32) slices_S2x800000_S1x800000_1_0) shapeCasts_S1x800000_S800000 := by
  dsimp only [hostOps0]; after_results; rfl

/-- The stretch writes none of the embedding and the two bias vectors. -/
theorem host0_arg0 : StableHlo.after hostOps0 W (Proc.devRef .tc main_arg0) = W (Proc.devRef .tc main_arg0) := by
  dsimp only [hostOps0]; after_results
theorem host0_arg3 : StableHlo.after hostOps0 W (Proc.devRef .tc main_arg3) = W (Proc.devRef .tc main_arg3) := by
  dsimp only [hostOps0]; after_results
theorem host0_arg5 : StableHlo.after hostOps0 W (Proc.devRef .tc main_arg5) = W (Proc.devRef .tc main_arg5) := by
  dsimp only [hostOps0]; after_results

/-- The result: the second region's output column, flattened. -/
theorem host2_v10_term :
    (StableHlo.after hostOps2 W (Proc.devRef .tc main_v10) : FVec Ideal S800000 .f32)
      = shapeCast S800000 (W (Proc.devRef .tc main_v9) : FVec Ideal S800000x1 .f32) shapeCasts_S800000x1_S800000 := by
  dsimp only [hostOps2]; after_results; rfl

end Cert.KernelIdeal.HostValue

end
-- ==== Proof.SpecLaws.lean ====
/-
  Laws of the specification: the perceptron keeps rows finite, a finite row's clamped length is a positive real
  number, and on finite rows "normalise, then take the inner product" equals "take the inner product, then divide by
  the product of the lengths".
-/
import proofs.«429688_j28192165331244_4_alg».proof.Proof.Spec

noncomputable section

namespace Cert.Spec

open Idealize.ShloMosaic Cert.Fin
open scoped BigOperators

/-- The clamping constant is the dyadic rational `11258999 / 2^50`. -/
theorem eps_eq : eps = ((11258999 / 2 ^ 50 : ℝ) : EReal) := by
  unfold eps
  simp [Ideal.ofBits, Ideal.ieee, -EReal.coe_mul]; norm_num

theorem eps_pos : 0 < eps := by
  rw [eps_eq]; exact_mod_cast (by positivity : (0 : ℝ) < 11258999 / 2 ^ 50)

theorem isFin_eps : IsFin eps := eps_eq ▸ isFin_coe _

theorem isFin_elu {a : EReal} (h : IsFin a) : IsFin (elu a) := by
  obtain ⟨r, rfl⟩ := h
  unfold elu
  split
  · exact isFin_coe r
  · rw [Ideal.exp_coe]; exact (isFin_coe _).sub isFin_one

theorem isFin_lin {M : Fin 128 → Fin 128 → EReal} {v x : Fin 128 → EReal} (hM : ∀ k j, IsFin (M k j))
    (hv : ∀ j, IsFin (v j)) (hx : ∀ k, IsFin (x k)) (j : Fin 128) : IsFin (lin M v x j) := by
  unfold lin
  exact (isFin_sum _ _ fun k _ => (hx k).mul (hM k j)).add (hv j)

theorem isFin_mlp {A B : Fin 128 → Fin 128 → EReal} {a b x : Fin 128 → EReal} (hA : ∀ k j, IsFin (A k j))
    (ha : ∀ j, IsFin (a j)) (hB : ∀ k j, IsFin (B k j)) (hb : ∀ j, IsFin (b j)) (hx : ∀ k, IsFin (x k)) (j : Fin 128) :
    IsFin (mlp A a B b x j) := by
  unfold mlp
  exact isFin_lin hB hb (fun k => isFin_elu (isFin_lin hA ha hx k)) j

/-- A finite row's clamped length is a positive real number. -/
theorem nrm_pos_real {o : Fin 128 → EReal} (ho : ∀ k, IsFin (o k)) : ∃ r : ℝ, 0 < r ∧ nrm o = (r : EReal) := by
  obtain ⟨f, hf⟩ := AllFin.exists_real (v := o) ho
  have hs : (∑ k : Fin 128, o k * o k) = ((∑ k : Fin 128, f k * f k : ℝ) : EReal) := by
    simp only [hf, ← EReal.coe_mul, ← coe_sum]
  have hnn : 0 ≤ ∑ k : Fin 128, f k * f k := Finset.sum_nonneg fun k _ => mul_self_nonneg (f k)
  refine ⟨max (Real.sqrt (∑ k : Fin 128, f k * f k)) (11258999 / 2 ^ 50), ?_, ?_⟩
  · exact lt_max_of_lt_right (by positivity)
  · unfold nrm
    rw [hs, Ideal.sqrt_coe, if_neg (not_lt.mpr hnn), eps_eq]
    exact (EReal.coe_strictMono.monotone.map_max).symm

/-- THE LAW that joins the two programs. -/
theorem edge_eq {o1 o2 : Fin 128 → EReal} (h1 : ∀ k, IsFin (o1 k)) (h2 : ∀ k, IsFin (o2 k)) :
    kernelEdge o1 o2 = refEdge o1 o2 := by
  obtain ⟨f, hf⟩ := AllFin.exists_real (v := o1) h1
  obtain ⟨g, hg⟩ := AllFin.exists_real (v := o2) h2
  obtain ⟨n1, hn1, e1⟩ := nrm_pos_real h1
  obtain ⟨n2, hn2, e2⟩ := nrm_pos_real h2
  unfold kernelEdge refEdge unit
  rw [e1, e2]
  simp only [hf, hg, div_coe_coe _ _ hn1.ne', div_coe_coe _ _ hn2.ne', ← EReal.coe_mul, ← coe_sum]
  rw [div_coe_coe _ _ (mul_pos hn1 hn2).ne', Finset.sum_div]
  congr 1
  exact Finset.sum_congr rfl fun k _ => by field_simp

/-- The kernel's spelling of the unit (a product with one). -/
theorem elu_kernel (a : EReal) : (if 0 < a then a else 1 * (Ideal.exp a - 1)) = elu a := by
  unfold elu
  rw [one_mul]

/-- jax's spelling of the unit (the exponential's argument made zero where the value is positive). -/
theorem elu_jax (a : EReal) : (if 0 < a then a else 1 * (Ideal.exp (if 0 < a then 0 else a) - 1)) = elu a := by
  unfold elu
  by_cases h : 0 < a
  · rw [if_pos h, if_pos h]
  · rw [if_neg h, if_neg h, if_neg h, one_mul]

end Cert.Spec

end
-- ==== Proof.KTablePayload.lean ====
/-
  The first region's arithmetic at one entry: a block of 5000 feature rows goes through the two linear layers with the
  exponential linear unit between them, and every output row is divided by its clamped length.  Read at row `r` and
  column `j` of the block, the stored value is the specification's `unit (mlp …) j` of row `r` of the block.
-/
import proofs.«429688_j28192165331244_4_alg».proof.Proof.Gen.KernelIdeal.Skeleton
import proofs.«429688_j28192165331244_4_alg».proof.Proof.Spec
import proofs.«429688_j28192165331244_4_alg».proof.Proof.SpecLaws
import proofs.«429688_j28192165331244_4_alg».proof.Proof.LibLayout
import Idealize.ShloMosaic.Lib.ValueIdx
import Idealize.ShloMosaic.Lib.ValueLayout
import Idealize.ShloMosaic.PureOps.Ideal.Laws

noncomputable section

namespace Cert.KernelIdeal.TablePayload

open Cert.KernelIdeal Cert.KernelIdeal.Gen Idealize.ShloMosaic Idealize.ShloMosaic.ValueIdx
open scoped BigOperators

/-- One linear layer as the kernel spells it: the product into a zero accumulator plus the bias laid along the rows. -/
def layer (x : FVec Ideal S5000x128 .f32) (w : FVec Ideal S128x128 .f32) (b : FVec Ideal S128 .f32) :
    FVec Ideal S5000x128 .f32 :=
  addf (matmul dot_S5000x128_S128x128_S5000x128_1_0_0_1_n_n none x (shapeCast S128x128 w shapeCasts_S128x128_S128x128)
      (constant S5000x128 .f32 0x00000000#32))
    (broadcastTo S5000x128 (shapeCast S1x128 b shapeCasts_S128_S1x128) broadcasts_S1x128_S5000x128)

/-- The exponential linear unit as the kernel spells it: a choice on "above zero" between the value and
    `1 · (exp − 1)`. -/
def act (h : FVec Ideal S5000x128 .f32) : FVec Ideal S5000x128 .f32 :=
  select (cmpf .ogt h (broadcast S5000x128 (Scalar.ofBits .f32 0x00000000#32))) h
    (mulf (broadcast S5000x128 (Scalar.ofBits .f32 0x3F800000#32))
      (subf (exp h) (broadcast S5000x128 (Scalar.ofBits .f32 0x3F800000#32))))

/-- Each row's clamped length, repeated along the row. -/
def len (o : FVec Ideal S5000x128 .f32) : FVec Ideal S5000x128 .f32 :=
  broadcastTo S5000x128
    (maximumf
      (sqrt (shapeCast S5000x1
        (multiReduction .add [1] S5000 (mulf o o) 0x00000000#32 reduces_S5000x128_S5000 (.inl rfl) rfl)
        shapeCasts_S5000_S5000x1))
      (broadcast S5000x1 (Scalar.ofBits .f32 0x322BCC77#32)))
    broadcasts_S5000x1_S5000x128

/-- The stored value is the second layer's output over its rows' lengths. -/
theorem pay_eq (x0 : Vec Ideal S5000x128 .f32) (x1 : Vec Ideal S128x128 .f32) (x2 : Vec Ideal S128 .f32)
    (x3 : Vec Ideal S128x128 .f32) (x4 : Vec Ideal S128 .f32) :
    k0_pay1 x0 x1 x2 x3 x4
      = divf (layer (act (layer x0 x1 x2)) x3 x4) (len (layer (act (layer x0 x1 x2)) x3 x4)) := rfl

/-- A layer at row `r`, column `j`: the specification's linear layer of row `r`. -/
theorem layer_apply (x : FVec Ideal S5000x128 .f32) (w : FVec Ideal S128x128 .f32) (b : FVec Ideal S128 .f32)
    (r : Fin 5000) (j : Fin 128) :
    layer x w b (ix2 r j) = Cert.Spec.lin (Cert.Spec.mat w) (Cert.Spec.vec b) (fun k => x (ix2 r k)) j := by
  unfold layer
  rw [shapeCast_self]
  show matmul dot_S5000x128_S128x128_S5000x128_1_0_0_1_n_n none x w (constant S5000x128 .f32 0x00000000#32) (ix2 r j)
      + broadcastTo S5000x128 (shapeCast S1x128 b shapeCasts_S128_S1x128) broadcasts_S1x128_S5000x128 (ix2 r j) = _
  rw [Cert.Layout.matmul_plain_apply _ rfl rfl rfl rfl rfl rfl none x w r j,
    Cert.Layout.broadcastTo_row_apply b _ _ r j]
  rfl

/-- The kernel's unit at an entry is the specification's. -/
theorem act_apply (h : FVec Ideal S5000x128 .f32) (i : S5000x128.Idx) : act h i = Cert.Spec.elu (h i) := by
  show Scalar.select (Ideal.cmp .ogt (h i) (Ideal.ofBits .f32 0x00000000#32)) (h i)
      (Ideal.ofBits .f32 0x3F800000#32 * (Ideal.exp (h i) - Ideal.ofBits .f32 0x3F800000#32)) = _
  rw [Ideal.ofBits_zero_f32, Cert.Fin.ofBits_one, ← Cert.Spec.elu_kernel]
  unfold Ideal.cmp Scalar.select
  by_cases hp : 0 < h i
  · simp [hp]
  · simp [hp]

/-- The repeated length at row `r` is the specification's clamped length of that row. -/
theorem len_apply (o : FVec Ideal S5000x128 .f32) (r : Fin 5000) (j : Fin 128) :
    len o (ix2 r j) = Cert.Spec.nrm (fun k => o (ix2 r k)) := by
  unfold len
  refine (Cert.Layout.broadcastTo_a1_ab_apply _ _ r j).trans ?_
  show max (Ideal.sqrt (shapeCast S5000x1
        (multiReduction .add [1] S5000 (mulf o o) 0x00000000#32 reduces_S5000x128_S5000 (.inl rfl) rfl)
        shapeCasts_S5000_S5000x1 (ix2 r (0 : Fin 1)))) (Ideal.ofBits .f32 0x322BCC77#32) = _
  rw [Cert.Layout.shapeCast_a_a1_apply]
  refine congrArg (fun s => max (Ideal.sqrt s) (Ideal.ofBits .f32 0x322BCC77#32)) ?_
  exact Cert.Layout.multiReduction_add_rows (mulf o o) _ _ _ _ r

/-- THE STORED VALUE at row `r`, column `j` of a block: the perceptron's output for row `r` of the block, divided by
    its clamped length. -/
theorem pay_apply (x0 : Vec Ideal S5000x128 .f32) (x1 : Vec Ideal S128x128 .f32) (x2 : Vec Ideal S128 .f32)
    (x3 : Vec Ideal S128x128 .f32) (x4 : Vec Ideal S128 .f32) (r : Fin 5000) (j : Fin 128) :
    k0_pay1 x0 x1 x2 x3 x4 (ix2 r j)
      = Cert.Spec.unit (Cert.Spec.mlp (Cert.Spec.mat x1) (Cert.Spec.vec x2) (Cert.Spec.mat x3) (Cert.Spec.vec x4)
          (Cert.Spec.row x0 r)) j := by
  have hO : ∀ k : Fin 128, layer (act (layer x0 x1 x2)) x3 x4 (ix2 r k)
      = Cert.Spec.mlp (Cert.Spec.mat x1) (Cert.Spec.vec x2) (Cert.Spec.mat x3) (Cert.Spec.vec x4) (Cert.Spec.row x0 r) k := by
    intro k
    rw [layer_apply]
    unfold Cert.Spec.mlp
    refine congrArg (fun f => Cert.Spec.lin (Cert.Spec.mat x3) (Cert.Spec.vec x4) f k) (funext fun i => ?_)
    rw [act_apply, layer_apply]
    rfl
  rw [pay_eq]
  show Ideal.div (layer (act (layer x0 x1 x2)) x3 x4 (ix2 r j)) (len (layer (act (layer x0 x1 x2)) x3 x4) (ix2 r j)) = _
  rw [len_apply, hO j]
  unfold Cert.Spec.unit
  refine congrArg (fun f => Ideal.div _ (Cert.Spec.nrm f)) (funext fun k => hO k)

/-- THE STORED BLOCK AS A BLOCK OF THE TABLE. If the feature block holds rows `q·5000 …` of the feature array and
    the four weight blocks are the weight arrays, the stored value at `y` is the table's entry at the index with
    row `q·5000 + y₀` and column `y₁`. -/
theorem point_value (emb : S50000x128.Idx → EReal) (A : S128x128.Idx → EReal) (a : S128.Idx → EReal)
    (B : S128x128.Idx → EReal) (b : S128.Idx → EReal)
    (x0 : Vec Ideal S5000x128 .f32) (x1 : Vec Ideal S128x128 .f32) (x2 : Vec Ideal S128 .f32)
    (x3 : Vec Ideal S128x128 .f32) (x4 : Vec Ideal S128 .f32) (q : ℕ)
    (h0 : ∀ (r : Fin 5000) (k : Fin 128) (n : Fin 50000), n.val = q * 5000 + r.val → x0 (ix2 r k) = emb (ix2 n k))
    (h1 : x1 = A) (h2 : x2 = a) (h3 : x3 = B) (h4 : x4 = b)
    (y : S5000x128.Idx) (i : S50000x128.Idx) (hi0 : (i 0).val = q * 5000 + (y 0).val) (hi1 : (i 1).val = (y 1).val) :
    k0_pay1 x0 x1 x2 x3 x4 y = Cert.Spec.table emb A a B b i := by
  subst h1 h2 h3 h4
  obtain ⟨r, j, rfl⟩ : ∃ (r : Fin 5000) (j : Fin 128), y = ix2 r j := ⟨y 0, y 1, eq_ix2 y⟩
  rw [pay_apply]
  unfold Cert.Spec.table
  have hj : i 1 = j := Fin.ext hi1
  have hrow : Cert.Spec.row x0 r = Cert.Spec.row emb (i 0) := funext fun k => h0 r k (i 0) hi0
  rw [hrow, hj]

end Cert.KernelIdeal.TablePayload

end
-- ==== Proof.KTable.lean ====
/-
  The first region's value: after its ten grid points the table array holds, at node `n` and column `j`, the
  perceptron's output for node `n` divided by its clamped length.
-/
import proofs.«429688_j28192165331244_4_alg».proof.Proof.Gen.KernelIdeal.Frame
import proofs.«429688_j28192165331244_4_alg».proof.Proof.Spec
import proofs.«429688_j28192165331244_4_alg».proof.Proof.KTablePayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TableValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

theorem hz2 : (![0, 0] : Fin 2 → Nat) = fun _ => 0 := funext fun a => by fin_cases a <;> rfl

theorem hz1 : (![0] : Fin 1 → Nat) = fun _ => 0 := funext fun a => by fin_cases a; rfl

/-- The printed index maps over the grid: the feature window and the table window sit at block `t` of their rows at
    point `t`, the four weight windows at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The feature window's block at point `t` holds rows `5000·t …` of the feature array. -/
theorem blk0_apply (c : Dev nD) (t : Fin cfg0.N) (r : Fin 5000) (k : Fin 128) (n : Fin 50000)
    (hn : n.val = t.val * 5000 + r.val) :
    (iblk0 V c 0 t : Vec Ideal S5000x128 .f32) (ix2 r k) = (V c main_arg0 : S50000x128.Idx → EReal) (ix2 n k) := by
  obtain ⟨e0, e1, -⟩ := idx_facts t
  show V c main_arg0 (((cfg0.win 0).blk t).view.emb (ix2 r k)) = V c main_arg0 (ix2 n k)
  refine congrArg (V c main_arg0) (funext fun a => Fin.ext ?_)
  match a with
  | ⟨0, _⟩ => show win0_0.index t (0 : Fin 2) * 5000 + 1 * r.val = n.val; rw [e0, hn]; omega
  | ⟨1, _⟩ => show win0_0.index t (1 : Fin 2) * 128 + 1 * k.val = k.val; rw [e1]; omega

/-- The first weight window's block is the whole (transposed) first weight matrix. -/
theorem blk1_eq (c : Dev nD) (t : Fin cfg0.N) :
    (iblk0 V c 1 t : Vec Ideal S128x128 .f32) = (V c main_v0 : S128x128.Idx → EReal) := by
  obtain ⟨-, -, e0, e1, -⟩ := idx_facts t
  funext y
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The first bias window's block is the whole first bias. -/
theorem blk2_eq (c : Dev nD) (t : Fin cfg0.N) :
    (iblk0 V c 2 t : Vec Ideal S128 .f32) = (V c main_arg3 : S128.Idx → EReal) := by
  obtain ⟨-, -, -, -, e0, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 1) * 128 + 1 * (y 0).val = (y 0).val; rw [e0]; omega

/-- The second weight window's block is the whole (transposed) second weight matrix. -/
theorem blk3_eq (c : Dev nD) (t : Fin cfg0.N) :
    (iblk0 V c 3 t : Vec Ideal S128x128 .f32) = (V c main_v1 : S128x128.Idx → EReal) := by
  obtain ⟨-, -, -, -, -, e0, e1, -⟩ := idx_facts t
  funext y
  show V c main_v1 (((cfg0.win 3).blk t).view.emb y) = V c main_v1 y
  refine congrArg (V c main_v1) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The second bias window's block is the whole second bias. -/
theorem blk4_eq (c : Dev nD) (t : Fin cfg0.N) :
    (iblk0 V c 4 t : Vec Ideal S128 .f32) = (V c main_arg5 : S128.Idx → EReal) := by
  obtain ⟨-, -, -, -, -, -, -, e0, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 1) * 128 + 1 * (y 0).val = (y 0).val; rw [e0]; omega

/-- WHAT POINT `t` WRITES BACK is block `t` of the table of the five arrays as the region finds them. -/
theorem flushed_eq (c : Dev nD) (t : Fin cfg0.N) :
    (dat0 (F := Ideal) V c).flushed 5 t
      = ((cfg0.win 5).blk t).view.read (Elt Ideal)
          (Cert.Spec.table (V c main_arg0) (V c main_v0) (V c main_arg3) (V c main_v1) (V c main_arg5)) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2,
    View.ld_unit_zero (S := S128) hz1]
  obtain ⟨-, -, -, -, -, -, -, -, e0, e1⟩ := idx_facts t
  refine funext fun (y : S5000x128.Idx) => ?_
  show k0_pay1 (iblk0 V c 0 t) (iblk0 V c 1 t) (iblk0 V c 2 t) (iblk0 V c 3 t) (iblk0 V c 4 t) y
      = Cert.Spec.table (V c main_arg0) (V c main_v0) (V c main_arg3) (V c main_v1) (V c main_arg5)
          (((cfg0.win 5).blk t).view.emb y)
  exact Cert.KernelIdeal.TablePayload.point_value (V c main_arg0) (V c main_v0) (V c main_arg3) (V c main_v1)
    (V c main_arg5) (iblk0 V c 0 t) (iblk0 V c 1 t) (iblk0 V c 2 t) (iblk0 V c 3 t) (iblk0 V c 4 t) t.val
    (fun r k n hn => blk0_apply V c t r k n hn) (blk1_eq V c t) (blk2_eq V c t) (blk3_eq V c t) (blk4_eq V c t)
    y (((cfg0.win 5).blk t).view.emb y)
    (by show win0_5.index t (0 : Fin 2) * 5000 + 1 * (y 0).val = t.val * 5000 + (y 0).val; rw [e0]; omega)
    (by show win0_5.index t (1 : Fin 2) * 128 + 1 * (y 1).val = (y 1).val; rw [e1]; omega)

/-- An index of the table array is in point `t`'s block iff each coordinate is in the block's range on its axis. -/
theorem mem_blk (t : Fin cfg0.N) (i : S50000x128.Idx) :
    i ∈ ((cfg0.win 5).blk t).view.set
      ↔ ∀ a : Fin 2, win0_5.index t a * S5000x128.size a ≤ (i a).val
          ∧ (i a).val < win0_5.index t a * S5000x128.size a + S5000x128.size a := by
  show i ∈ ((View.whole main_v6).slice (win0_5.rect t)).set ↔ _
  rw [View.set_slice_whole, Rect.mem_set_unit]
  exact Iff.rfl

/-- Row `n` of the table is covered by point `n / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

theorem table_eq (c : Dev nD) :
    (dat0 (F := Ideal) V c).arrAt 5 cfg0.N
      = Cert.Spec.table (V c main_arg0) (V c main_v0) (V c main_arg3) (V c main_v1) (V c main_arg5) :=
  (dat0 (F := Ideal) V c).arrAt_eq_of_cover 5
    (Cert.Spec.table (V c main_arg0) (V c main_v0) (V c main_arg3) (V c main_v1) (V c main_arg5))
    (fun t _ => flushed_eq V c t) cover

end Cert.KernelIdeal.TableValue

end
-- ==== Proof.KCos.lean ====
/-
  The second region's value: after its two hundred grid points the output column holds, at edge `e`, the inner
  product of row `e` of the two gathered arrays.
-/
import proofs.«429688_j28192165331244_4_alg».proof.Proof.Gen.KernelIdeal.Frame
import proofs.«429688_j28192165331244_4_alg».proof.Proof.Spec
import proofs.«429688_j28192165331244_4_alg».proof.Proof.LibLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.CosValue

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-! ## One entry of the body's result -/

/-- The body's payload at row `r` of its one column: the inner product of row `r` of the two blocks (the two
    casts to the same shape change nothing; the lane sum is the sum over the row; the column cast keeps the row). -/
theorem pay_apply (x0 x1 : Vec Ideal S4000x128 .f32) (r : Fin 4000) (u : Fin 1) :
    k1_pay1 x0 x1 (ix2 r u) = ∑ k : Fin 128, x0 (ix2 r k) * x1 (ix2 r k) := by
  unfold k1_pay1
  refine (Cert.Layout.shapeCast_a_a1_apply _ _ r u).trans ?_
  refine (Cert.Layout.multiReduction_add_rows _ _ _ _ _ r).trans ?_
  refine Finset.sum_congr rfl fun k _ => ?_
  rw [mulf_apply, shapeCast_self, shapeCast_self]

/-- One entry of what a point writes back, over variables: if row `r` of each block is row `i 0` of its array, the
    payload at `(r, u)` is the row-wise inner product of the two arrays at `i`. -/
theorem point_apply (f1 f2 : S800000x128.Idx → EReal) (x0 x1 : Vec Ideal S4000x128 .f32) (r : Fin 4000) (u : Fin 1)
    (i : S800000x1.Idx) (hx0 : ∀ k : Fin 128, x0 (ix2 r k) = f1 (ix2 (i 0) k))
    (hx1 : ∀ k : Fin 128, x1 (ix2 r k) = f2 (ix2 (i 0) k)) :
    k1_pay1 x0 x1 (ix2 r u) = Cert.Spec.cosArr f1 f2 i := by
  refine (pay_apply x0 x1 r u).trans ?_
  unfold Cert.Spec.cosArr
  exact Finset.sum_congr rfl fun k _ => by rw [hx0 k, hx1 k]

/-! ## The blocks: block row `r` of point `t` is array row `4000 t + r`, in all three windows -/

/-- The zero offsets of a whole-block access, as the constant function. -/
theorem hz : (![0, 0] : Fin 2 → Nat) = fun _ => 0 := funext fun a => by fin_cases a <;> rfl

/-- The three printed index maps, decided over the two hundred points: every window's block at point `t` is block
    `(t, 0)` of its array. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `r` of the first gathered array's block at point `t` is row `4000 t + r` of that array. -/
theorem blk0_apply (c : Dev nD) (t : Fin cfg1.N) (x : S4000x128.Idx) (i : S800000x128.Idx)
    (h0 : (i 0).val = t.val * 4000 + (x 0).val) (h1 : (i 1).val = (x 1).val) :
    (iblk1 V c 0 t : Vec Ideal S4000x128 .f32) x = (V c main_v7 : S800000x128.Idx → EReal) i := by
  obtain ⟨e0, e1, -, -, -, -⟩ := idx_facts t
  unfold iblk1
  rw [View.read_apply]
  show (V c main_v7 : S800000x128.Idx → EReal) _ = (V c main_v7 : S800000x128.Idx → EReal) i
  congr 1
  funext a
  apply Fin.ext
  match a with
  | ⟨0, _⟩ => show win1_0.index t (0 : Fin 2) * 4000 + 1 * (x 0).val = (i 0).val; rw [e0, h0]; omega
  | ⟨1, _⟩ => show win1_0.index t (1 : Fin 2) * 128 + 1 * (x 1).val = (i 1).val; rw [e1, h1]; omega

/-- Row `r` of the second gathered array's block at point `t` is row `4000 t + r` of that array. -/
theorem blk1_apply (c : Dev nD) (t : Fin cfg1.N) (x : S4000x128.Idx) (i : S800000x128.Idx)
    (h0 : (i 0).val = t.val * 4000 + (x 0).val) (h1 : (i 1).val = (x 1).val) :
    (iblk1 V c 1 t : Vec Ideal S4000x128 .f32) x = (V c main_v8 : S800000x128.Idx → EReal) i := by
  obtain ⟨-, -, e0, e1, -, -⟩ := idx_facts t
  unfold iblk1
  rw [View.read_apply]
  show (V c main_v8 : S800000x128.Idx → EReal) _ = (V c main_v8 : S800000x128.Idx → EReal) i
  congr 1
  funext a
  apply Fin.ext
  match a with
  | ⟨0, _⟩ => show win1_1.index t (0 : Fin 2) * 4000 + 1 * (x 0).val = (i 0).val; rw [e0, h0]; omega
  | ⟨1, _⟩ => show win1_1.index t (1 : Fin 2) * 128 + 1 * (x 1).val = (i 1).val; rw [e1, h1]; omega

/-- What point `t` writes back is block `t` of the row-wise inner product of the two gathered arrays. -/
theorem flushed_eq (c : Dev nD) (t : Fin cfg1.N) :
    (dat1 (F := Ideal) V c).flushed 2 t
      = ((cfg1.win 2).blk t).view.read (Elt Ideal) (Cert.Spec.cosArr (V c main_v7) (V c main_v8)) := by
  show (cfg1.win 2).cut (grid1.coords t) ((dat1 V c).after 2 t) = _
  rw [after1_2]
  unfold out1_2
  rw [View.canon_unit_zero hz]
  simp only [View.ld_unit_zero (S := S4000x128) hz]
  obtain ⟨-, -, -, -, e0, e1⟩ := idx_facts t
  funext j
  obtain ⟨r, u, rfl⟩ : ∃ (r : Fin 4000) (u : Fin 1), j = ix2 r u := ⟨j 0, j 1, eq_ix2 j⟩
  show k1_pay1 (iblk1 V c 0 t) (iblk1 V c 1 t) (ix2 r u)
    = Cert.Spec.cosArr (V c main_v7) (V c main_v8) (((cfg1.win 2).blk t).view.emb (ix2 r u))
  have hrow : ((((cfg1.win 2).blk t).view.emb (ix2 r u) : S800000x1.Idx) 0).val = t.val * 4000 + r.val := by
    show win1_2.index t (0 : Fin 2) * 4000 + 1 * r.val = _
    rw [e0]; omega
  refine point_apply (V c main_v7) (V c main_v8) (iblk1 V c 0 t) (iblk1 V c 1 t) r u _ (fun k => ?_) (fun k => ?_)
  · exact blk0_apply V c t (ix2 r k) _ hrow rfl
  · exact blk1_apply V c t (ix2 r k) _ hrow rfl

/-! ## From blocks to the array -/

/-- An index of the output column is in point `t`'s block iff each coordinate is in the block's range on its axis. -/
theorem mem_blk (t : Fin cfg1.N) (i : S800000x1.Idx) :
    i ∈ ((cfg1.win 2).blk t).view.set ↔ ∀ a : Fin 2, win1_2.index t a * S4000x1.size a ≤ (i a).val
      ∧ (i a).val < win1_2.index t a * S4000x1.size a + S4000x1.size a := by
  show i ∈ ((View.whole main_v9).slice (win1_2.rect t)).set ↔ _
  rw [View.set_slice_whole, Rect.mem_set_unit]
  exact Iff.rfl

/-- Every edge is written: row `e` of the output column lies in the block of point `e / 4000`. -/
theorem cover (i : S800000x1.Idx) :
    ∃ t : Fin cfg1.N, (cfg1.win 2).flush t = true ∧ i ∈ ((cfg1.win 2).blk t).view.set := by
  have hi0 : (i 0).val < 800000 := idx2_lt0 i
  have hi1 : (i 1).val < 1 := idx2_lt1 i
  have hN : cfg1.N = 200 := N_1
  have ht : (i 0).val / 4000 < cfg1.N := by rw [hN]; omega
  obtain ⟨-, -, -, -, e0, e1⟩ := idx_facts ⟨(i 0).val / 4000, ht⟩
  refine ⟨⟨(i 0).val / 4000, ht⟩, flush1_2 _, ?_⟩
  rw [mem_blk]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win1_2.index ⟨(i 0).val / 4000, ht⟩ (1 : Fin 2) * 1 ≤ (i 1).val
      ∧ (i 1).val < win1_2.index ⟨(i 0).val / 4000, ht⟩ (1 : Fin 2) * 1 + 1
    rw [e1]
    omega

/-- After all two hundred points the output column is the row-wise inner product of the two gathered arrays: every
    point writes its block of that one function, and the blocks cover the column. -/
theorem cos_eq (c : Dev nD) :
    (dat1 (F := Ideal) V c).arrAt 2 cfg1.N = Cert.Spec.cosArr (V c main_v7) (V c main_v8) :=
  (dat1 (F := Ideal) V c).arrAt_eq_of_cover 2 (Cert.Spec.cosArr (V c main_v7) (V c main_v8))
    (fun t _ => flushed_eq V c t) cover

end Cert.KernelIdeal.CosValue

end
-- ==== Proof.LibRowGather.lean ====
/-
  A general fact about `stablehlo.gather` used as a ROW TAKE: from an `N × C` table and an `n × 1` column of start
  indices, with the row axis collapsed and start-indexed and the column axis an offset axis of full width, result entry
  `(p, q)` is the table's entry `(r, q)` where `r` is the start index of position `p`, read signed and clamped into
  `[0, N − 1]`.
-/
import Idealize.ShloMosaic.PureOps.Ideal
import Idealize.ShloMosaic.Lib.ValueIdx

noncomputable section

namespace Cert.RowGather

open Idealize.ShloMosaic Idealize.ShloMosaic.ValueIdx

/-- The row take read at `(p, q)`. The hypotheses are the printed dimension numbers, each closed by `rfl` at a use. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hsl : d.sliceSizes = ![1, C])
    (x : (⟨2, ![N, C]⟩ : Shape).Idx → α) (idx : IVec ⟨2, ![n, 1]⟩ w) (p : Fin n) (q : Fin C) (hN : 0 < N) :
    Host.gather d x idx (ix2 p q)
      = x (ix2 (⟨min (idx (ix2 p (0 : Fin 1))).toInt.toNat (N - 1), by omega⟩ : Fin N) q) := by
  unfold Host.gather
  congr 1
  funext a
  apply Fin.ext
  have hb : ∀ a : Fin 2, a ∉ d.operandBatchingDims := fun a => by rw [hob]; exact List.not_mem_nil
  have ha : a = (0 : Fin 2) ∨ a = (1 : Fin 2) := by
    match a with
    | ⟨0, _⟩ => exact Or.inl rfl
    | ⟨1, _⟩ => exact Or.inr rfl
  rcases ha with rfl | rfl
  ·
    -- the row axis: collapsed and start-indexed, so the coordinate is the clamped start alone
    have hk : (0 : Fin 2) ∉ d.sKept := by rw [GatherDims.mem_sKept, hcoll]; simp
    have hm : (0 : Fin 2) ∈ d.startIndexMap := by rw [hsim]; exact List.mem_singleton.mpr rfl
    have hsl0 : d.sliceSizes 0 = 1 := by rw [hsl]; rfl
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ix2 p (0 : Fin 1))).toInt.toNat (N - 1)
    rw [hsl0]
    congr 3
    congr 1
    funext b
    match b with
    | ⟨0, _⟩ =>
      -- the batch coordinate: the result's axis 0 is its one batch axis, reading the start indices' axis 0
      unfold GatherDims.siIdx
      rw [dif_neg (by rw [hivd]; simp)]
      unfold GatherDims.siCoord
      apply Fin.ext
      simp only [Fin.val_cast]
      have e : ∀ X : Fin 2, X ∈ d.batchDims → ((ix2 p q : (⟨2, ![n, C]⟩ : Shape).Idx) X).val = p.val := fun X hX => by
        have hX0 : X = 0 := by
          have h1 : X ∉ d.offsetDims := by
            have := hX
            simp only [GatherDims.batchDims, Shape.kept, List.mem_filter, decide_eq_true_eq] at this
            exact this.2
          rw [hoff] at h1
          match X, h1 with
          | ⟨0, _⟩, _ => rfl
          | ⟨1, _⟩, h => exact (h (List.mem_singleton.mpr rfl)).elim
        subst hX0; rfl
      exact e _ (List.getElem_mem _)
    | ⟨1, _⟩ =>
      unfold GatherDims.siIdx
      rw [dif_pos (by rw [hivd])]
      apply Fin.ext
      show List.idxOf (0 : Fin 2) d.startIndexMap = 0
      rw [hsim]; simp
  ·
    -- the column axis: an offset axis outside the start index map, so the coordinate is the offset alone
    have hk : (1 : Fin 2) ∈ d.sKept := by rw [GatherDims.mem_sKept, hcoll]; exact ⟨by simp, hb _⟩
    have hm : (1 : Fin 2) ∉ d.startIndexMap := by rw [hsim]; simp
    simp only [GatherDims.operandIdx, GatherDims.batchCoord_eq_zero _ _ _ (hb _), Nat.add_zero, GatherDims.start,
      dif_neg hm, Nat.zero_add]
    unfold GatherDims.offCoord
    rw [dif_pos hk]
    have e : ∀ X : Fin 2, X ∈ d.offsetDims → ((ix2 p q : (⟨2, ![n, C]⟩ : Shape).Idx) X).val = q.val := fun X hX => by
      rw [hoff] at hX
      have hX1 : X = 1 := List.mem_singleton.mp hX
      subst hX1; rfl
    exact e _ (List.getElem_mem _)

end Cert.RowGather

end
-- ==== Proof.KTake.lean ====
/-
  The two take stretches between the regions: with an in-range index word, row `e` of the gathered array is the
  table's row the word names (the wrap of negative words and the out-of-range fill are not met).
-/
import proofs.«429688_j28192165331244_4_alg».proof.Proof.Gen.KernelIdeal.Launch
import proofs.«429688_j28192165331244_4_alg».proof.Proof.Spec
import proofs.«429688_j28192165331244_4_alg».proof.Proof.LibRowGather
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.TakeValue

open Cert.KernelIdeal Cert.KernelIdeal.Gen Idealize.ShloMosaic Idealize.ShloMosaic.TcCoe Idealize.ShloMosaic.ValueIdx Idealize.SL.Sem

open Idealize.ShloMosaic.StableHlo.Predicate

/-- The index words, the negative ones wrapped by the table's height. -/
def wrapped (w : IVec S800000 32) : IVec S800000 32 :=
  select (cmpi .slt w (broadcastInDim S800000 ![] bcast_S_S800000 (constantI S_ 32 0#32)))
    (addi w (broadcastInDim S800000 ![] bcast_S_S800000 (constantI S_ 32 50000#32))) w

/-- The wrapped words as a column of start indices. -/
def column (w : IVec S800000 32) : IVec S800000x1 32 :=
  broadcastInDim S800000x1 ![0] bcast_S800000_S800000x1_0 (wrapped w)

/-- The range mask: 1 where the wrapped word lies in `[0, 49999]`. -/
def inRange (w : IVec S800000 32) : IVec S800000 1 :=
  Host.reduce IntOp.andi
    (andi (cmpi .sge (column w) (broadcastInDim S800000x1 ![] bcast_S_S800000x1 (constantI S_ 32 0#32)))
      (cmpi .sle (column w) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The take of the table's rows at the index words, the rows of out-of-range words filled. -/
def takeRows (T : FVec Ideal S50000x128 .f32) (w : IVec S800000 32) : FVec Ideal S800000x128 .f32 :=
  select (broadcastInDim S800000x128 ![0] bcast_S800000_S800000x128_0 (inRange w))
    (Host.gather gather_S50000x128_S800000x1_S800000x128_1_0_n_n_0_1_1128 T (column w))
    (broadcastInDim S800000x128 ![] bcast_S_S800000x128 (constant (F := Ideal) S_ .f32 0x7FC00000#32))

/-- An in-range word is not wrapped. -/
theorem wrapped_apply (w : IVec S800000 32) (e : Fin 800000) (h : (w (ix1 e)).toNat < 50000) :
    wrapped w (ix1 e) = w (ix1 e) := by
  show Scalar.select (IntOp.cmpi .slt (w (ix1 e)) 0#32) (IntOp.addi (w (ix1 e)) 50000#32) (w (ix1 e)) = w (ix1 e)
  have hn : ¬ IntOp.cmpi .slt (w (ix1 e)) 0#32 = 1#1 := by
    rw [slt_iff_toNat (by omega) (by decide)]
    exact Nat.not_lt_zero _
  rw [eq_zero_of_ne_one hn, select_zero]

/-- The column at row `e` is the wrapped word of `e`. -/
theorem column_apply (w : IVec S800000 32) (e : Fin 800000) : column w (ix2 e (0 : Fin 1)) = wrapped w (ix1 e) :=
  broadcastInDim_apply _ _ _ (ix2 e (0 : Fin 1)) (ix1 e) (fun a => match a with | ⟨0, _⟩ => rfl)

/-- A fold over the one-point index set is the operation at that point and the initial value. -/
theorem fold_fin_one {α : Type} (f : α → α → α) [Std.Commutative f] [Std.Associative f] (b : α) (g : Fin 1 → α) :
    (Finset.univ : Finset (Fin 1)).fold f b g = f (g 0) b := by
  rw [Finset.univ_unique, Finset.fold_singleton]; rfl

/-- The column's unit axis is a reduced axis. -/
theorem reduces_col : S800000x1.Reduces [1] S800000 := by decide

/-- An in-range word passes the range mask. -/
theorem inRange_apply (w : IVec S800000 32) (e : Fin 800000) (h : (w (ix1 e)).toNat < 50000) :
    inRange w (ix1 e) = 1#1 := by
  unfold inRange
  rw [Host.reduce_eq_fold_single IntOp.andi _ _ reducesTo_S800000x1_S800000_d1 reduces_col h_S_ (ix1 e)]
  have hl : ∀ k : Fin 1, reduces_col.lift (ix1 e) k = ix2 e (0 : Fin 1) := fun k => by
    obtain rfl : k = 0 := Subsingleton.elim _ _
    funext c
    apply Fin.ext
    match c with
    | ⟨0, _⟩ => rfl
    | ⟨1, _⟩ => rfl
  refine (fold_fin_one IntOp.andi _ _).trans ?_
  show IntOp.andi (IntOp.andi (IntOp.cmpi .sge (column w (reduces_col.lift (ix1 e) (0 : Fin 1))) 0#32)
    (IntOp.cmpi .sle (column w (reduces_col.lift (ix1 e) (0 : Fin 1))) 49999#32)) 1#1 = 1#1
  rw [hl, column_apply, wrapped_apply w e h]
  have h1 : IntOp.cmpi .sge (w (ix1 e)) 0#32 = 1#1 := (sge_iff_toNat (by omega) (by decide)).mpr (Nat.zero_le _)
  have h2 : IntOp.cmpi .sle (w (ix1 e)) 49999#32 = 1#1 :=
    (sle_iff_toNat (by omega) (by decide)).mpr (by rw [show (49999#32).toNat = 49999 from rfl]; omega)
  rw [h1, h2]
  decide

/-- THE TAKE AT AN IN-RANGE WORD: row `e` of the result is the table's row the word names. -/
theorem takeRows_apply (T : FVec Ideal S50000x128 .f32) (w : IVec S800000 32) (e : Fin 800000) (j : Fin 128)
    (h : (w (ix1 e)).toNat < 50000) :
    takeRows T w (ix2 e j) = T (ix2 (Cert.Spec.node (w (ix1 e))) j) := by
  unfold takeRows
  rw [select_apply]
  have hm : broadcastInDim S800000x128 ![0] bcast_S800000_S800000x128_0 (inRange w) (ix2 e j) = 1#1 :=
    (broadcastInDim_apply _ _ _ (ix2 e j) (ix1 e) (fun a => match a with | ⟨0, _⟩ => rfl)).trans (inRange_apply w e h)
  rw [hm, select_one]
  rw [Cert.RowGather.gather_rows_apply _ rfl rfl rfl rfl rfl rfl rfl T (column w) e j (by decide)]
  refine congrArg (fun r : Fin 50000 => T (ix2 r j)) (Fin.ext ?_)
  show min (column w (ix2 e (0 : Fin 1))).toInt.toNat (50000 - 1) = (Cert.Spec.node (w (ix1 e))).val
  rw [column_apply, wrapped_apply w e h, Cert.Spec.node_val h, toInt_eq_toNat_of_lt (by omega), Int.toNat_natCast]
  omega

/-- Contents moved to a typed reference's buffer type and back are the contents. -/
theorem ofBuf_toBuf {Val : EltTy → Type} {T : BufTy} (x : StableHlo.TRef sig T) (v : T.Contents Val) :
    x.ofBuf (x.toBuf v) = v := by
  obtain ⟨r, rfl, _, _⟩ := x; rfl

/-- At the literal references the stretches read and write, the transport of contents is the identity. -/
theorem ofBuf_v3 (p1 p2 p3) (v : IVec S800000 32) :
    (StableHlo.TRef.of (T := ⟨S800000, .i32⟩) main_v3 p1 p2 p3).ofBuf (Val := Elt Ideal) v = v := rfl
theorem ofBuf_v5 (p1 p2 p3) (v : IVec S800000 32) :
    (StableHlo.TRef.of (T := ⟨S800000, .i32⟩) main_v5 p1 p2 p3).ofBuf (Val := Elt Ideal) v = v := rfl
theorem ofBuf_v6 (p1 p2 p3) (v : FVec Ideal S50000x128 .f32) :
    (StableHlo.TRef.of (T := ⟨S50000x128, .f32⟩) main_v6 p1 p2 p3).ofBuf (Val := Elt Ideal) v = v := rfl
theorem toBuf_v7 (p1 p2 p3) (v : FVec Ideal S800000x128 .f32) :
    (StableHlo.TRef.of (T := ⟨S800000x128, .f32⟩) main_v7 p1 p2 p3).toBuf (Val := Elt Ideal) v = v := rfl
theorem toBuf_v8 (p1 p2 p3) (v : FVec Ideal S800000x128 .f32) :
    (StableHlo.TRef.of (T := ⟨S800000x128, .f32⟩) main_v8 p1 p2 p3).toBuf (Val := Elt Ideal) v = v := rfl

/-- The first take's stretch composes to the take of the table at the source words. -/
theorem take0_term (W : Valuation τ sig (Elt Ideal)) :
    (StableHlo.after hostOps1 W (Proc.devRef .tc main_v7) : FVec Ideal S800000x128 .f32)
      = takeRows (W (Proc.devRef .tc main_v6)) (W (Proc.devRef .tc main_v3)) := by
  dsimp only [hostOps1]
  after_results_simp
  simp only [ofBuf_toBuf]
  rw [toBuf_v7, ofBuf_v3, ofBuf_v6]
  rfl

/-- The second take's stretch composes to the take of the table at the target words. -/
theorem take1_term (W : Valuation τ sig (Elt Ideal)) :
    (StableHlo.after hostOps1_1 W (Proc.devRef .tc main_v8) : FVec Ideal S800000x128 .f32)
      = takeRows (W (Proc.devRef .tc main_v6)) (W (Proc.devRef .tc main_v5)) := by
  dsimp only [hostOps1_1]
  after_results_simp
  simp only [ofBuf_toBuf]
  rw [toBuf_v8, ofBuf_v5, ofBuf_v6]
  rfl

/-- The first take: source rows. -/
theorem take0 (W : Valuation τ sig (Elt Ideal)) (e : Fin 800000) (j : Fin 128)
    (h : ((W (Proc.devRef .tc main_v3) : IVec S800000 32) (ix1 e)).toNat < 50000) :
    (StableHlo.after hostOps1 W (Proc.devRef .tc main_v7) : FVec Ideal S800000x128 .f32) (ix2 e j)
      = (W (Proc.devRef .tc main_v6) : FVec Ideal S50000x128 .f32)
          (ix2 (Cert.Spec.node ((W (Proc.devRef .tc main_v3) : IVec S800000 32) (ix1 e))) j) := by
  rw [take0_term W]
  exact takeRows_apply _ _ e j h

/-- The first take leaves the table and the target indices as they were. -/
theorem take0_v6 (W : Valuation τ sig (Elt Ideal)) :
    StableHlo.after hostOps1 W (Proc.devRef .tc main_v6) = W (Proc.devRef .tc main_v6) := by
  dsimp only [hostOps1]; after_results_simp
theorem take0_v5 (W : Valuation τ sig (Elt Ideal)) :
    StableHlo.after hostOps1 W (Proc.devRef .tc main_v5) = W (Proc.devRef .tc main_v5) := by
  dsimp only [hostOps1]; after_results_simp

/-- The second take: target rows. -/
theorem take1 (W : Valuation τ sig (Elt Ideal)) (e : Fin 800000) (j : Fin 128)
    (h : ((W (Proc.devRef .tc main_v5) : IVec S800000 32) (ix1 e)).toNat < 50000) :
    (StableHlo.after hostOps1_1 W (Proc.devRef .tc main_v8) : FVec Ideal S800000x128 .f32) (ix2 e j)
      = (W (Proc.devRef .tc main_v6) : FVec Ideal S50000x128 .f32)
          (ix2 (Cert.Spec.node ((W (Proc.devRef .tc main_v5) : IVec S800000 32) (ix1 e))) j) := by
  rw [take1_term W]
  exact takeRows_apply _ _ e j h

/-- The second take leaves the first take's result as it was. -/
theorem take1_v7 (W : Valuation τ sig (Elt Ideal)) :
    StableHlo.after hostOps1_1 W (Proc.devRef .tc main_v7) = W (Proc.devRef .tc main_v7) := by
  dsimp only [hostOps1_1]; after_results_simp

end Cert.KernelIdeal.TakeValue

end
-- ==== Proof.KValue.lean ====
/-
  The kernel program's result as one function of its arguments.  Reading the boundary contents backwards: the result
  is the second region's output column flattened; the column holds, per edge, the inner product of the two gathered
  rows; a gathered row is the table's row the (in-range) index word names; the table's row `n` is node `n`'s
  perceptron output over its clamped length; and the table's inputs are the embedding, the two transposed weight
  matrices and the two bias vectors as launched.
-/
import proofs.«429688_j28192165331244_4_alg».proof.Proof.Gen.KernelIdeal.Frame
import proofs.«429688_j28192165331244_4_alg».proof.Proof.Spec
import proofs.«429688_j28192165331244_4_alg».proof.Proof.LibLayout
import proofs.«429688_j28192165331244_4_alg».proof.Proof.KHost
import proofs.«429688_j28192165331244_4_alg».proof.Proof.KTable
import proofs.«429688_j28192165331244_4_alg».proof.Proof.KCos
import proofs.«429688_j28192165331244_4_alg».proof.Proof.KTake
import Idealize.ShloMosaic.Lib.ValueLayout

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The launch contents of a buffer are the launch memory's. -/
theorem W0_eq (c : Dev nD) (b : Ref sig .tc) : W0 m ρ c (Proc.devRef .tc b) = m ((c : Thread nD τ).loc b) := rfl

/-- The index words the first region is entered with: endpoint `s` of edge `e`. -/
theorem W1_v3 (c : Dev nD) (e : Fin 800000) :
    (W1 m ρ c (Proc.devRef .tc main_v3) : IVec S800000 32) (ix1 e)
      = (m ((c : Thread nD τ).loc main_arg1) : IVec S2x800000 32) (ix2 (0 : Fin 2) e) := by
  show (StableHlo.after hostOps0 (W0 m ρ c) (Proc.devRef .tc main_v3) : IVec S800000 32) (ix1 e) = _
  rw [HostValue.host0_v3_term]
  refine (shapeCast_1a_a_apply _ _ e).trans ?_
  exact slice2_axis0_apply 0 _ _ (0 : Fin 1) e (0 : Fin 2) rfl

theorem W1_v5 (c : Dev nD) (e : Fin 800000) :
    (W1 m ρ c (Proc.devRef .tc main_v5) : IVec S800000 32) (ix1 e)
      = (m ((c : Thread nD τ).loc main_arg1) : IVec S2x800000 32) (ix2 (1 : Fin 2) e) := by
  show (StableHlo.after hostOps0 (W0 m ρ c) (Proc.devRef .tc main_v5) : IVec S800000 32) (ix1 e) = _
  rw [HostValue.host0_v5_term]
  refine (shapeCast_1a_a_apply _ _ e).trans ?_
  exact slice2_axis0_apply 1 _ _ (0 : Fin 1) e (1 : Fin 2) rfl

/-- The table the first region leaves. -/
theorem W2_table (c : Dev nD) :
    (W2 m ρ c (Proc.devRef .tc main_v6) : FVec Ideal S50000x128 .f32)
      = Cert.Spec.table (m ((c : Thread nD τ).loc main_arg0))
          (transpose S128x128 [1, 0] (m ((c : Thread nD τ).loc main_arg2) : FVec Ideal S128x128 .f32) transposes_S128x128_S128x128_1_0)
          (m ((c : Thread nD τ).loc main_arg3))
          (transpose S128x128 [1, 0] (m ((c : Thread nD τ).loc main_arg4) : FVec Ideal S128x128 .f32) transposes_S128x128_S128x128_1_0)
          (m ((c : Thread nD τ).loc main_arg5)) := by
  refine (W2_arr m ρ c 5).trans ?_
  rw [TableValue.table_eq]
  show Cert.Spec.table (W1 m ρ c (Proc.devRef .tc main_arg0)) (W1 m ρ c (Proc.devRef .tc main_v0))
      (W1 m ρ c (Proc.devRef .tc main_arg3)) (W1 m ρ c (Proc.devRef .tc main_v1)) (W1 m ρ c (Proc.devRef .tc main_arg5)) = _
  rw [show W1 m ρ c (Proc.devRef .tc main_arg0) = _ from HostValue.host0_arg0 (W0 m ρ c),
    show W1 m ρ c (Proc.devRef .tc main_arg3) = _ from HostValue.host0_arg3 (W0 m ρ c),
    show W1 m ρ c (Proc.devRef .tc main_arg5) = _ from HostValue.host0_arg5 (W0 m ρ c),
    show (W1 m ρ c (Proc.devRef .tc main_v0) : FVec Ideal S128x128 .f32) = _ from HostValue.host0_v0 (W0 m ρ c),
    show (W1 m ρ c (Proc.devRef .tc main_v1) : FVec Ideal S128x128 .f32) = _ from HostValue.host0_v1 (W0 m ρ c)]

/-- The edge list as launched, the table the first region leaves, and the two gathered arrays the second region is
    entered with, each named at its literal type. -/
abbrev eiOf (c : Dev nD) : IVec S2x800000 32 := m ((c : Thread nD τ).loc main_arg1)
abbrev tbl (c : Dev nD) : FVec Ideal S50000x128 .f32 := W2 m ρ c (Proc.devRef .tc main_v6)
abbrev src (c : Dev nD) : FVec Ideal S800000x128 .f32 := V4 m ρ c main_v7
abbrev tgt (c : Dev nD) : FVec Ideal S800000x128 .f32 := V4 m ρ c main_v8

/-- A gathered source row is the table's row the index word names. -/
theorem src_apply (c : Dev nD) (e : Fin 800000) (k : Fin 128) (h : (eiOf m c (ix2 (0 : Fin 2) e)).toNat < 50000) :
    src m ρ c (ix2 e k) = tbl m ρ c (ix2 (Cert.Spec.node (eiOf m c (ix2 (0 : Fin 2) e))) k) := by
  have hv3 : (W2 m ρ c (Proc.devRef .tc main_v3) : IVec S800000 32) (ix1 e) = eiOf m c (ix2 (0 : Fin 2) e) := by
    rw [W2_of_ne m ρ c main_v3 (by decide)]; exact W1_v3 m ρ c e
  show (StableHlo.after hostOps1_1 (W3 m ρ c) (Proc.devRef .tc main_v7) : FVec Ideal S800000x128 .f32) (ix2 e k) = _
  rw [TakeValue.take1_v7]
  show (StableHlo.after hostOps1 (W2 m ρ c) (Proc.devRef .tc main_v7) : FVec Ideal S800000x128 .f32) (ix2 e k) = _
  rw [TakeValue.take0 (W2 m ρ c) e k (by rw [hv3]; exact h), hv3]

/-- A gathered target row likewise. -/
theorem tgt_apply (c : Dev nD) (e : Fin 800000) (k : Fin 128) (h : (eiOf m c (ix2 (1 : Fin 2) e)).toNat < 50000) :
    tgt m ρ c (ix2 e k) = tbl m ρ c (ix2 (Cert.Spec.node (eiOf m c (ix2 (1 : Fin 2) e))) k) := by
  have hv5 : (W3 m ρ c (Proc.devRef .tc main_v5) : IVec S800000 32) (ix1 e) = eiOf m c (ix2 (1 : Fin 2) e) := by
    show (StableHlo.after hostOps1 (W2 m ρ c) (Proc.devRef .tc main_v5) : IVec S800000 32) (ix1 e) = _
    rw [TakeValue.take0_v5, W2_of_ne m ρ c main_v5 (by decide)]; exact W1_v5 m ρ c e
  have hv6 : W3 m ρ c (Proc.devRef .tc main_v6) = W2 m ρ c (Proc.devRef .tc main_v6) := TakeValue.take0_v6 (W2 m ρ c)
  show (StableHlo.after hostOps1_1 (W3 m ρ c) (Proc.devRef .tc main_v8) : FVec Ideal S800000x128 .f32) (ix2 e k) = _
  rw [TakeValue.take1 (W3 m ρ c) e k (by rw [hv5]; exact h), hv5, hv6]

/-- THE KERNEL'S VALUE: with every index word in range, the result array is `Spec.kOut` of the arguments. -/
theorem value (c : Dev nD) (hei : ∀ i, (eiOf m c i).toNat < 50000) :
    (W6 m ρ c (Proc.devRef .tc main_v10) : FVec Ideal S800000 .f32)
      = Cert.Spec.kOut (m ((c : Thread nD τ).loc main_arg0)) (m ((c : Thread nD τ).loc main_arg1))
          (transpose S128x128 [1, 0] (m ((c : Thread nD τ).loc main_arg2) : FVec Ideal S128x128 .f32) transposes_S128x128_S128x128_1_0)
          (m ((c : Thread nD τ).loc main_arg3))
          (transpose S128x128 [1, 0] (m ((c : Thread nD τ).loc main_arg4) : FVec Ideal S128x128 .f32) transposes_S128x128_S128x128_1_0)
          (m ((c : Thread nD τ).loc main_arg5)) := by
  funext i
  obtain ⟨e, rfl⟩ : ∃ e : Fin 800000, i = ix1 e := ⟨i 0, eq_ix1 i⟩
  show (StableHlo.after hostOps2 (W5 m ρ c) (Proc.devRef .tc main_v10) : FVec Ideal S800000 .f32) (ix1 e) = _
  rw [HostValue.host2_v10_term]
  refine (Cert.Layout.shapeCast_a1_a_apply _ _ e).trans ?_
  rw [show (W5 m ρ c (Proc.devRef .tc main_v9) : FVec Ideal S800000x1 .f32) = _ from W5_arr m ρ c 2, CosValue.cos_eq]
  show Cert.Spec.cosArr (src m ρ c) (tgt m ρ c) (ix2 e (0 : Fin 1)) = _
  unfold Cert.Spec.cosArr
  simp only [src_apply m ρ c e _ (hei _), tgt_apply m ρ c e _ (hei _)]
  unfold tbl
  rw [W2_table]
  rfl

end Cert.KernelIdeal.Value

end
-- ==== Proof.RefTerm.lean ====
/-
  The reference program's result as ONE term of its argument arrays, in named stages: the index column of an
  endpoint (negative indices wrapped once, as numpy does), the exponential linear unit as jax spells it, the
  two-layer perceptron on the gathered rows, a row's clamped length, and the quotient of the inner product by
  the product of the two lengths.  Each stage is the composition of the program's own operations in their order.
-/
import proofs.«429688_j28192165331244_4_alg».proof.Proof.Gen.ReferenceIdeal

noncomputable section

namespace Cert.ReferenceIdeal.RefTerm

open Cert.ReferenceIdeal Cert.ReferenceIdeal.Facts₀ Idealize.ShloMosaic

variable {F : FTy → Type} [FloatOps F]

/-- The start-index column of one endpoint: row `off 0` of the edge list, a negative entry moved up by the number
    of nodes, laid out as an `800000 × 1` column. -/
def idxCol (off : Fin 2 → Nat) (hs : S2x800000.Slices off S1x800000) (ei : IVec S2x800000 32) : IVec S800000x1 32 :=
  broadcastInDim S800000x1 ![0] bcast_S800000_S800000x1_0
    (select
      (cmpi .slt (shapeCast S800000 (extractStridedSlice S1x800000 off ei hs) shapeCasts_S1x800000_S800000)
        (broadcastInDim S800000 ![] bcast_S_S800000 (constantI S_ 32 0#32)))
      (addi (shapeCast S800000 (extractStridedSlice S1x800000 off ei hs) shapeCasts_S1x800000_S800000)
        (broadcastInDim S800000 ![] bcast_S_S800000 (constantI S_ 32 50000#32)))
      (shapeCast S800000 (extractStridedSlice S1x800000 off ei hs) shapeCasts_S1x800000_S800000))

/-- jax's exponential linear unit: where `h > 0` the value itself, elsewhere `1 · expm1` of the value with the
    positive entries replaced by zero. -/
def eluArr (h : FVec F S800000x128 .f32) : FVec F S800000x128 .f32 :=
  select (cmpf .ogt h (broadcastInDim S800000x128 ![] bcast_S_S800000x128 (constant S_ .f32 0x00000000#32)))
    h
    (mulf (broadcastInDim S800000x128 ![] bcast_S_S800000x128 (constant S_ .f32 0x3F800000#32))
      (Host.expm1
        (select (cmpf .ogt h (broadcastInDim S800000x128 ![] bcast_S_S800000x128 (constant S_ .f32 0x00000000#32)))
          (broadcastInDim S800000x128 ![] bcast_S_S800000x128 (id (constant S_ .f32 0x00000000#32)))
          h)))

/-- One linear layer on every row: the product with the transposed weight plus the bias broadcast down the rows. -/
def linArr (x : FVec F S800000x128 .f32) (W : FVec F S128x128 .f32) (b : FVec F S128 .f32) : FVec F S800000x128 .f32 :=
  addf (Host.dotGeneral dot_S800000x128_S128x128_S800000x128_1_0_0_1_n_n none x
      (transpose S128x128 [1, 0] W transposes_S128x128_S128x128_1_0))
    (broadcastInDim S800000x128 ![0, 1] bcast_S1x128_S800000x128_0_1 (broadcastInDim S1x128 ![1] bcast_S128_S1x128_1 b))

/-- The perceptron on every gathered row. -/
def featArr (g : FVec F S800000x128 .f32) (W1 : FVec F S128x128 .f32) (b1 : FVec F S128 .f32)
    (W2 : FVec F S128x128 .f32) (b2 : FVec F S128 .f32) : FVec F S800000x128 .f32 :=
  linArr (eluArr (linArr g W1 b1)) W2 b2

/-- Every row's length, clamped from below. -/
def lenArr (f : FVec F S800000x128 .f32) : FVec F S800000 .f32 :=
  maximumf (Host.sqrt (Host.reduceAdd (mulf f f) (constant S_ .f32 0x00000000#32) reducesTo_S800000x128_S800000_d1 h_S_))
    (broadcastInDim S800000 ![] bcast_S_S800000 (constant S_ .f32 0x322BCC77#32))

/-- The rows of the embedding one endpoint's index column names. -/
def gathered (emb : FVec F S50000x128 .f32) (ei : IVec S2x800000 32) (off : Fin 2 → Nat)
    (hs : S2x800000.Slices off S1x800000) : FVec F S800000x128 .f32 :=
  Host.gather gather_S50000x128_S800000x1_S800000x128_1_0_n_n_0_1_1128 emb (idxCol off hs ei)

/-- The reference's result. -/
def res (emb : FVec F S50000x128 .f32) (ei : IVec S2x800000 32) (W1 : FVec F S128x128 .f32) (b1 : FVec F S128 .f32)
    (W2 : FVec F S128x128 .f32) (b2 : FVec F S128 .f32) : FVec F S800000 .f32 :=
  Host.divf
    (Host.reduceAdd
      (mulf (featArr (gathered emb ei ![0, 0] slices_S2x800000_S1x800000_0_0) W1 b1 W2 b2)
        (featArr (gathered emb ei ![1, 0] slices_S2x800000_S1x800000_1_0) W1 b1 W2 b2))
      (constant S_ .f32 0x00000000#32) reducesTo_S800000x128_S800000_d1 h_S_)
    (mulf (lenArr (featArr (gathered emb ei ![0, 0] slices_S2x800000_S1x800000_0_0) W1 b1 W2 b2))
      (lenArr (featArr (gathered emb ei ![1, 0] slices_S2x800000_S1x800000_1_0) W1 b1 W2 b2)))

end Cert.ReferenceIdeal.RefTerm

end
-- ==== Proof.RRun.lean ====
/-
  The reference program's run: every weakly fair execution terminates with the result buffer at the composed term
  `RefTerm.res` of the argument arrays, and the arguments unchanged.
-/
import proofs.«429688_j28192165331244_4_alg».proof.Proof.Gen.ReferenceIdeal
import proofs.«429688_j28192165331244_4_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

section Line

open Cert.ReferenceIdeal.Facts₀

/-- The program's operations from the first endpoint's index column to the first perceptron's result, in order: the
    two index rows, the first row's wrap and gather, the first layer, the exponential linear unit (its two
    selections unfolded in place), the second layer. -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v11 ((transpose S128x128 [1, 0] · transposes_S128x128_S128x128_1_0) : (⟨S128x128, .f32⟩ : BufTy).Contents (Elt F) → (⟨S128x128, .f32⟩ : BufTy).Contents (Elt F)),
    StableHlo.binary main_v10 main_v11 main_v12 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg3 main_v13 (broadcastInDim S1x128 ![1] bcast_S128_S1x128_1 : (⟨S128, .f32⟩ : BufTy).Contents (Elt F) → (⟨S1x128, .f32⟩ : BufTy).Contents (Elt F)),
    StableHlo.unary main_v13 main_v14 (broadcastInDim S800000x128 ![0, 1] bcast_S1x128_S800000x128_0_1 : (⟨S1x128, .f32⟩ : BufTy).Contents (Elt F) → (⟨S800000x128, .f32⟩ : BufTy).Contents (Elt F)),
    StableHlo.binary main_v12 main_v14 main_v15 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (TRef.of main_v15 : TRef sig ⟨S800000x128, .f32⟩) main_call0.v0 main_call0.v1 (cmpf .ogt),
    StableHlo.TRef.nullary main_call0.cst_0 (constant S_ .f32 0x00000000#32),
    StableHlo.TRef.unary main_call0.cst_0 main_call0.v2 (broadcastInDim S800000x128 ![] bcast_S_S800000x128),
    StableHlo.TRef.binary (TRef.of main_v15 : TRef sig ⟨S800000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S800000x128 ![] bcast_S_S800000x128),
    StableHlo.TRef.ternary main_call0.v3 main_call0.call0.v1 (TRef.of main_v15 : TRef sig ⟨S800000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S800000x128 ![] bcast_S_S800000x128),
    StableHlo.TRef.binary main_call0.v6 main_call0.v5 main_call0.v7 mulf,
    StableHlo.TRef.ternary main_call0.v1 (TRef.of main_v15 : TRef sig ⟨S800000x128, .f32⟩) main_call0.v7 main_call0.call1.v0 select,
    StableHlo.unary main_arg4 main_v17 ((transpose S128x128 [1, 0] · transposes_S128x128_S128x128_1_0) : (⟨S128x128, .f32⟩ : BufTy).Contents (Elt F) → (⟨S128x128, .f32⟩ : BufTy).Contents (Elt F)),
    StableHlo.binary main_v16 main_v17 main_v18 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg5 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S800000x128 ![0, 1] bcast_S1x128_S800000x128_0_1 : (⟨S1x128, .f32⟩ : BufTy).Contents (Elt F) → (⟨S800000x128, .f32⟩ : BufTy).Contents (Elt F)),
    StableHlo.binary main_v18 main_v20 main_v21 (addf : (⟨S800000x128, .f32⟩ : BufTy).Contents (Elt F) → (⟨S800000x128, .f32⟩ : BufTy).Contents (Elt F) → (⟨S800000x128, .f32⟩ : BufTy).Contents (Elt F)) ]

/-- The same for the second endpoint, from its wrap to the second perceptron's result. -/
abbrev opsB : List (HloOp τ sig (Elt F)) :=
  [ StableHlo.nullary main_c_1 (constantI S_ 32 0#32),
    StableHlo.unary main_c_1 main_v22 (broadcastInDim S800000 ![] bcast_S_S800000 : (⟨S_, .i32⟩ : BufTy).Contents (Elt F) → (⟨S800000, .i32⟩ : BufTy).Contents (Elt F)),
    StableHlo.binary main_v3 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v24 (broadcastInDim S800000 ![] bcast_S_S800000 : (⟨S_, .i32⟩ : BufTy).Contents (Elt F) → (⟨S800000, .i32⟩ : BufTy).Contents (Elt F)),
    StableHlo.binary main_v3 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_arg0 main_v27 main_v28 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg2 main_v29 ((transpose S128x128 [1, 0] · transposes_S128x128_S128x128_1_0) : (⟨S128x128, .f32⟩ : BufTy).Contents (Elt F) → (⟨S128x128, .f32⟩ : BufTy).Contents (Elt F)),
    StableHlo.binary main_v28 main_v29 main_v30 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg3 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S800000x128 ![0, 1] bcast_S1x128_S800000x128_0_1 : (⟨S1x128, .f32⟩ : BufTy).Contents (Elt F) → (⟨S800000x128, .f32⟩ : BufTy).Contents (Elt F)),
    StableHlo.binary main_v30 main_v32 main_v33 (addf : (⟨S800000x128, .f32⟩ : BufTy).Contents (Elt F) → (⟨S800000x128, .f32⟩ : BufTy).Contents (Elt F) → (⟨S800000x128, .f32⟩ : BufTy).Contents (Elt F)),
    StableHlo.TRef.nullary main_call1.cst (constant S_ .f32 0x00000000#32),
    StableHlo.TRef.unary main_call1.cst main_call1.v0 (broadcastInDim S800000x128 ![] bcast_S_S800000x128),
    StableHlo.TRef.binary (TRef.of main_v33 : TRef sig ⟨S800000x128, .f32⟩) main_call1.v0 main_call1.v1 (cmpf .ogt),
    StableHlo.TRef.nullary main_call1.cst_0 (constant S_ .f32 0x00000000#32),
    StableHlo.TRef.unary main_call1.cst_0 main_call1.v2 (broadcastInDim S800000x128 ![] bcast_S_S800000x128),
    StableHlo.TRef.binary (TRef.of main_v33 : TRef sig ⟨S800000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S800000x128 ![] bcast_S_S800000x128),
    StableHlo.TRef.ternary main_call1.v3 main_call1.call0.v1 (TRef.of main_v33 : TRef sig ⟨S800000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S800000x128 ![] bcast_S_S800000x128),
    StableHlo.TRef.binary main_call1.v6 main_call1.v5 main_call1.v7 mulf,
    StableHlo.TRef.ternary main_call1.v1 (TRef.of main_v33 : TRef sig ⟨S800000x128, .f32⟩) main_call1.v7 main_call1.call1.v0 select,
    StableHlo.unary main_arg4 main_v35 ((transpose S128x128 [1, 0] · transposes_S128x128_S128x128_1_0) : (⟨S128x128, .f32⟩ : BufTy).Contents (Elt F) → (⟨S128x128, .f32⟩ : BufTy).Contents (Elt F)),
    StableHlo.binary main_v34 main_v35 main_v36 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg5 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S800000x128 ![0, 1] bcast_S1x128_S800000x128_0_1 : (⟨S1x128, .f32⟩ : BufTy).Contents (Elt F) → (⟨S800000x128, .f32⟩ : BufTy).Contents (Elt F)),
    StableHlo.binary main_v36 main_v38 main_v39 (addf : (⟨S800000x128, .f32⟩ : BufTy).Contents (Elt F) → (⟨S800000x128, .f32⟩ : BufTy).Contents (Elt F) → (⟨S800000x128, .f32⟩ : BufTy).Contents (Elt F)) ]

/-- The two squared lengths, their clamped roots, the inner product and the quotient. -/
abbrev opsC : List (HloOp τ sig (Elt F)) :=
  [ StableHlo.binary main_v21 main_v21 main_v40 (mulf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x00000000#32),
    StableHlo.binary main_v40 main_cst main_v41 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.unary main_v41 main_v42 (Host.sqrt : (⟨S800000, .f32⟩ : BufTy).Contents (Elt F) → (⟨S800000, .f32⟩ : BufTy).Contents (Elt F)),
    StableHlo.nullary main_cst_3 (constant S_ .f32 0x322BCC77#32),
    StableHlo.unary main_cst_3 main_v43 (broadcastInDim S800000 ![] bcast_S_S800000 : (⟨S_, .f32⟩ : BufTy).Contents (Elt F) → (⟨S800000, .f32⟩ : BufTy).Contents (Elt F)),
    StableHlo.binary main_v42 main_v43 main_v44 (maximumf : (⟨S800000, .f32⟩ : BufTy).Contents (Elt F) → (⟨S800000, .f32⟩ : BufTy).Contents (Elt F) → (⟨S800000, .f32⟩ : BufTy).Contents (Elt F)),
    StableHlo.binary main_v39 main_v39 main_v45 (mulf : (⟨S800000x128, .f32⟩ : BufTy).Contents (Elt F) → (⟨S800000x128, .f32⟩ : BufTy).Contents (Elt F) → (⟨S800000x128, .f32⟩ : BufTy).Contents (Elt F)),
    StableHlo.nullary main_cst_4 (constant S_ .f32 0x00000000#32),
    StableHlo.binary main_v45 main_cst_4 main_v46 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.unary main_v46 main_v47 (Host.sqrt : (⟨S800000, .f32⟩ : BufTy).Contents (Elt F) → (⟨S800000, .f32⟩ : BufTy).Contents (Elt F)),
    StableHlo.nullary main_cst_5 (constant S_ .f32 0x322BCC77#32),
    StableHlo.unary main_cst_5 main_v48 (broadcastInDim S800000 ![] bcast_S_S800000 : (⟨S_, .f32⟩ : BufTy).Contents (Elt F) → (⟨S800000, .f32⟩ : BufTy).Contents (Elt F)),
    StableHlo.binary main_v47 main_v48 main_v49 (maximumf : (⟨S800000, .f32⟩ : BufTy).Contents (Elt F) → (⟨S800000, .f32⟩ : BufTy).Contents (Elt F) → (⟨S800000, .f32⟩ : BufTy).Contents (Elt F)),
    StableHlo.binary main_v21 main_v39 main_v50 (mulf : (⟨S800000x128, .f32⟩ : BufTy).Contents (Elt F) → (⟨S800000x128, .f32⟩ : BufTy).Contents (Elt F) → (⟨S800000x128, .f32⟩ : BufTy).Contents (Elt F)),
    StableHlo.nullary main_cst_6 (constant S_ .f32 0x00000000#32),
    StableHlo.binary main_v50 main_cst_6 main_v51 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.binary main_v44 main_v49 main_v52 (mulf : (⟨S800000, .f32⟩ : BufTy).Contents (Elt F) → (⟨S800000, .f32⟩ : BufTy).Contents (Elt F) → (⟨S800000, .f32⟩ : BufTy).Contents (Elt F)),
    StableHlo.binary main_v51 main_v52 main_v53 (Host.divf : (⟨S800000, .f32⟩ : BufTy).Contents (Elt F) → (⟨S800000, .f32⟩ : BufTy).Contents (Elt F) → (⟨S800000, .f32⟩ : BufTy).Contents (Elt F)) ]

end Line

/-- The contents after two lines in a row. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxRecDepth 4096 in
set_option maxHeartbeats 4000000 in
/-- The program is that straight line: the three functions unfolded at their calls, sequencing reassociated. -/
theorem main_eq (c : Dev nD) : main (F := F) c = seq (opsA ++ (opsB ++ opsC)) := by
  simp only [main, main_part0, main_part1, fn_elu.body, fn_where.body, fn_where_0.body, seq_append, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Each stretch touches TensorCore buffers only, operation by operation. -/
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., binary_bufs_sub .., unary_bufs_sub ..,
    unary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    binary_bufs_sub .., unary_bufs_sub .., unary_bufs_sub .., binary_bufs_sub ..⟩

theorem opsC_sub : (opsC : List (HloOp τ sig (Elt F))).Forall fun op => op.bufs ⊆ tcRefs τ sig :=
  ⟨binary_bufs_sub .., nullary_bufs_sub .., binary_bufs_sub .., unary_bufs_sub .., nullary_bufs_sub .., unary_bufs_sub ..,
    binary_bufs_sub .., binary_bufs_sub .., nullary_bufs_sub .., binary_bufs_sub .., unary_bufs_sub .., nullary_bufs_sub ..,
    unary_bufs_sub .., binary_bufs_sub .., binary_bufs_sub .., nullary_bufs_sub .., binary_bufs_sub .., binary_bufs_sub ..,
    binary_bufs_sub ..⟩

/-- Every operation of the line touches TensorCore buffers only. -/
theorem ops_sub : (opsA ++ (opsB ++ opsC) : List (HloOp τ sig (Elt F))).Forall fun op => op.bufs ⊆ tcRefs τ sig :=
  List.forall_iff_forall_mem.mpr fun op h => by
    rcases List.mem_append.mp h with h | h
    · exact List.forall_iff_forall_mem.mp opsA_sub op h
    · rcases List.mem_append.mp h with h | h
      · exact List.forall_iff_forall_mem.mp opsB_sub op h
      · exact List.forall_iff_forall_mem.mp opsC_sub op h

/-- No operation of a stretch leaves what it writes undetermined. -/
theorem opsA_fresh : ∀ op ∈ (opsA : List (HloOp τ sig (Elt F))), op.fresh = ∅ :=
  List.forall_iff_forall_mem.mp (show (opsA : List (HloOp τ sig (Elt F))).Forall fun op => op.fresh = ∅ from
    ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩)

theorem opsB_fresh : ∀ op ∈ (opsB : List (HloOp τ sig (Elt F))), op.fresh = ∅ :=
  List.forall_iff_forall_mem.mp (show (opsB : List (HloOp τ sig (Elt F))).Forall fun op => op.fresh = ∅ from
    ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩)

theorem opsC_fresh : ∀ op ∈ (opsC : List (HloOp τ sig (Elt F))), op.fresh = ∅ :=
  List.forall_iff_forall_mem.mp (show (opsC : List (HloOp τ sig (Elt F))).Forall fun op => op.fresh = ∅ from
    ⟨rfl, rfl, rfl, rfl, rfl, rfl, rfl, rfl, rfl, rfl, rfl, rfl, rfl, rfl, rfl, rfl, rfl, rfl, rfl⟩)

/-- Every operation of the line determines what it writes. -/
theorem ops_fresh : ∀ op ∈ (opsA ++ (opsB ++ opsC) : List (HloOp τ sig (Elt F))), op.fresh = ∅ := fun op h => by
  rcases List.mem_append.mp h with h | h
  · exact opsA_fresh op h
  · rcases List.mem_append.mp h with h | h
    · exact opsB_fresh op h
    · exact opsC_fresh op h

section Stages

open Cert.ReferenceIdeal.Facts₀

/-- An index row with its negative entries moved up by the number of nodes, as a column. -/
def wrapCol (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Row `off 0` of the edge list as a vector. -/
def idxRow (off : Fin 2 → Nat) (hs : S2x800000.Slices off S1x800000) (ei : IVec S2x800000 32) : IVec S800000 32 :=
  shapeCast S800000 (extractStridedSlice S1x800000 off ei hs) shapeCasts_S1x800000_S800000

theorem idxCol_eq (off : Fin 2 → Nat) (hs : S2x800000.Slices off S1x800000) (ei : IVec S2x800000 32) :
    RefTerm.idxCol off hs ei = wrapCol (idxRow off hs ei) := rfl

attribute [local irreducible] Host.gather Host.reduceAdd Host.expm1 Host.sqrt Host.divf

/-- After the first stretch the first perceptron's result holds the perceptron of the first endpoint's rows. -/
theorem A_v21 (V : Valuation τ sig (Elt F)) :
    after opsA V (main_v21 : DevRef τ sig)
      = RefTerm.featArr (F := F) (RefTerm.gathered (V (main_arg0 : DevRef τ sig)) (V (main_arg1 : DevRef τ sig)) ![0, 0] slices_S2x800000_S1x800000_0_0)
          (V (main_arg2 : DevRef τ sig)) (V (main_arg3 : DevRef τ sig)) (V (main_arg4 : DevRef τ sig)) (V (main_arg5 : DevRef τ sig)) := by
  after_results_simp <;> rfl

/-- After the first stretch the second index row is in its buffer. -/
theorem A_v3 (V : Valuation τ sig (Elt F)) :
    after opsA V (main_v3 : DevRef τ sig) = idxRow ![1, 0] slices_S2x800000_S1x800000_1_0 (V (main_arg1 : DevRef τ sig)) := by
  after_results_simp <;> rfl

/-- The first stretch writes no argument. -/
theorem A_arg0 (V : Valuation τ sig (Elt F)) :
    after opsA V (main_arg0 : DevRef τ sig) = V (main_arg0 : DevRef τ sig) := by
  after_results_simp

theorem A_arg1 (V : Valuation τ sig (Elt F)) :
    after opsA V (main_arg1 : DevRef τ sig) = V (main_arg1 : DevRef τ sig) := by
  after_results_simp

theorem A_arg2 (V : Valuation τ sig (Elt F)) :
    after opsA V (main_arg2 : DevRef τ sig) = V (main_arg2 : DevRef τ sig) := by
  after_results_simp

theorem A_arg3 (V : Valuation τ sig (Elt F)) :
    after opsA V (main_arg3 : DevRef τ sig) = V (main_arg3 : DevRef τ sig) := by
  after_results_simp

theorem A_arg4 (V : Valuation τ sig (Elt F)) :
    after opsA V (main_arg4 : DevRef τ sig) = V (main_arg4 : DevRef τ sig) := by
  after_results_simp

theorem A_arg5 (V : Valuation τ sig (Elt F)) :
    after opsA V (main_arg5 : DevRef τ sig) = V (main_arg5 : DevRef τ sig) := by
  after_results_simp

/-- After the second stretch the second perceptron's result holds the perceptron of the rows the wrapped second
    index row names. -/
theorem B_v39 (W : Valuation τ sig (Elt F)) :
    after opsB W (main_v39 : DevRef τ sig)
      = RefTerm.featArr (F := F)
          (Host.gather gather_S50000x128_S800000x1_S800000x128_1_0_n_n_0_1_1128 (W (main_arg0 : DevRef τ sig)) (wrapCol (W (main_v3 : DevRef τ sig))))
          (W (main_arg2 : DevRef τ sig)) (W (main_arg3 : DevRef τ sig)) (W (main_arg4 : DevRef τ sig)) (W (main_arg5 : DevRef τ sig)) := by
  after_results_simp <;> rfl

/-- The second stretch writes neither the first perceptron's result nor an argument. -/
theorem B_v21 (W : Valuation τ sig (Elt F)) :
    after opsB W (main_v21 : DevRef τ sig) = W (main_v21 : DevRef τ sig) := by
  after_results_simp

theorem B_arg0 (W : Valuation τ sig (Elt F)) :
    after opsB W (main_arg0 : DevRef τ sig) = W (main_arg0 : DevRef τ sig) := by
  after_results_simp

theorem B_arg1 (W : Valuation τ sig (Elt F)) :
    after opsB W (main_arg1 : DevRef τ sig) = W (main_arg1 : DevRef τ sig) := by
  after_results_simp

theorem B_arg2 (W : Valuation τ sig (Elt F)) :
    after opsB W (main_arg2 : DevRef τ sig) = W (main_arg2 : DevRef τ sig) := by
  after_results_simp

theorem B_arg3 (W : Valuation τ sig (Elt F)) :
    after opsB W (main_arg3 : DevRef τ sig) = W (main_arg3 : DevRef τ sig) := by
  after_results_simp

theorem B_arg4 (W : Valuation τ sig (Elt F)) :
    after opsB W (main_arg4 : DevRef τ sig) = W (main_arg4 : DevRef τ sig) := by
  after_results_simp

theorem B_arg5 (W : Valuation τ sig (Elt F)) :
    after opsB W (main_arg5 : DevRef τ sig) = W (main_arg5 : DevRef τ sig) := by
  after_results_simp

/-- After the last stretch the result buffer holds the inner product of the two perceptron results over the product
    of their clamped lengths. -/
theorem C_v53 (X : Valuation τ sig (Elt F)) :
    after opsC X (main_v53 : DevRef τ sig)
      = Host.divf
          (Host.reduceAdd (mulf (X (main_v21 : DevRef τ sig)) (X (main_v39 : DevRef τ sig))) (constant S_ .f32 0x00000000#32)
            reducesTo_S800000x128_S800000_d1 h_S_)
          (mulf (RefTerm.lenArr (F := F) (X (main_v21 : DevRef τ sig))) (RefTerm.lenArr (F := F) (X (main_v39 : DevRef τ sig)))) := by
  after_results_simp <;> rfl

/-- The last stretch writes no argument. -/
theorem C_arg0 (X : Valuation τ sig (Elt F)) :
    after opsC X (main_arg0 : DevRef τ sig) = X (main_arg0 : DevRef τ sig) := by
  after_results_simp

theorem C_arg1 (X : Valuation τ sig (Elt F)) :
    after opsC X (main_arg1 : DevRef τ sig) = X (main_arg1 : DevRef τ sig) := by
  after_results_simp

theorem C_arg2 (X : Valuation τ sig (Elt F)) :
    after opsC X (main_arg2 : DevRef τ sig) = X (main_arg2 : DevRef τ sig) := by
  after_results_simp

theorem C_arg3 (X : Valuation τ sig (Elt F)) :
    after opsC X (main_arg3 : DevRef τ sig) = X (main_arg3 : DevRef τ sig) := by
  after_results_simp

theorem C_arg4 (X : Valuation τ sig (Elt F)) :
    after opsC X (main_arg4 : DevRef τ sig) = X (main_arg4 : DevRef τ sig) := by
  after_results_simp

theorem C_arg5 (X : Valuation τ sig (Elt F)) :
    after opsC X (main_arg5 : DevRef τ sig) = X (main_arg5 : DevRef τ sig) := by
  after_results_simp

/-- The whole line at the result buffer: the reference's term of the six arguments. -/
theorem res_eq (V : Valuation τ sig (Elt F)) :
    after (opsA ++ (opsB ++ opsC)) V (main_v53 : DevRef τ sig) = RefTerm.res (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_app, after_app, C_v53, B_v21, B_v39, A_v21, A_v3, A_arg0, A_arg2, A_arg3, A_arg4, A_arg5]
  rfl

/-- The whole line leaves argument 0 as it was. -/
theorem arg0_eq (V : Valuation τ sig (Elt F)) :
    after (opsA ++ (opsB ++ opsC)) V (main_arg0 : DevRef τ sig) = V (main_arg0 : DevRef τ sig) := by
  rw [after_app, after_app, C_arg0, B_arg0, A_arg0]

/-- The whole line leaves argument 1 as it was. -/
theorem arg1_eq (V : Valuation τ sig (Elt F)) :
    after (opsA ++ (opsB ++ opsC)) V (main_arg1 : DevRef τ sig) = V (main_arg1 : DevRef τ sig) := by
  rw [after_app, after_app, C_arg1, B_arg1, A_arg1]

/-- The whole line leaves argument 2 as it was. -/
theorem arg2_eq (V : Valuation τ sig (Elt F)) :
    after (opsA ++ (opsB ++ opsC)) V (main_arg2 : DevRef τ sig) = V (main_arg2 : DevRef τ sig) := by
  rw [after_app, after_app, C_arg2, B_arg2, A_arg2]

/-- The whole line leaves argument 3 as it was. -/
theorem arg3_eq (V : Valuation τ sig (Elt F)) :
    after (opsA ++ (opsB ++ opsC)) V (main_arg3 : DevRef τ sig) = V (main_arg3 : DevRef τ sig) := by
  rw [after_app, after_app, C_arg3, B_arg3, A_arg3]

/-- The whole line leaves argument 4 as it was. -/
theorem arg4_eq (V : Valuation τ sig (Elt F)) :
    after (opsA ++ (opsB ++ opsC)) V (main_arg4 : DevRef τ sig) = V (main_arg4 : DevRef τ sig) := by
  rw [after_app, after_app, C_arg4, B_arg4, A_arg4]

/-- The whole line leaves argument 5 as it was. -/
theorem arg5_eq (V : Valuation τ sig (Elt F)) :
    after (opsA ++ (opsB ++ opsC)) V (main_arg5 : DevRef τ sig) = V (main_arg5 : DevRef τ sig) := by
  rw [after_app, after_app, C_arg5, B_arg5, A_arg5]

end Stages

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
        = RefTerm.res (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  -- every execution ends with each buffer at the line's fold over the launch contents
  have hfold := run_seq scopedRefs_eq scopedSems_eq defs (main (F := F)) (fun _ => opsA ++ (opsB ++ opsC)) main_eq
    (fun _ => ops_sub) m ρ (fun _ => ops_fresh)
  -- read the fold at the seven buffers the statement names
  refine (θ_run defs _ _).mono (fun r h c => ?_) hfold
  exact ⟨(h c main_v53).trans (res_eq _), (h c main_arg0).trans (arg0_eq _), (h c main_arg1).trans (arg1_eq _),
    (h c main_arg2).trans (arg2_eq _), (h c main_arg3).trans (arg3_eq _), (h c main_arg4).trans (arg4_eq _),
    (h c main_arg5).trans (arg5_eq _)⟩

end Cert.ReferenceIdeal.RefRun

end
-- ==== Proof.RRead.lean ====
/-
  The reference's term read at one edge: with in-range index words it is the inner product of the two endpoints'
  perceptron outputs over the product of their clamped lengths.
-/
import proofs.«429688_j28192165331244_4_alg».proof.Proof.Gen.ReferenceIdeal
import proofs.«429688_j28192165331244_4_alg».proof.Proof.RefTerm
import proofs.«429688_j28192165331244_4_alg».proof.Proof.Spec
import proofs.«429688_j28192165331244_4_alg».proof.Proof.SpecLaws
import proofs.«429688_j28192165331244_4_alg».proof.Proof.LibRowGather
import proofs.«429688_j28192165331244_4_alg».proof.Proof.LibLayout
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefRead

open Cert.ReferenceIdeal Idealize.ShloMosaic Idealize.ShloMosaic.TcCoe Idealize.SL.Sem Idealize.ShloMosaic.ValueIdx Cert.ReferenceIdeal.Facts₀

open scoped BigOperators

/-- An in-range index word is not negative when read signed: its comparison "below zero" answers 0. -/
theorem slt_zero_of_small {w : BitVec 32} (hw : w.toNat < 50000) : IntOp.cmpi .slt w 0#32 = 0#1 := by
  refine eq_zero_of_ne_one fun h => ?_
  have h2 := (StableHlo.Predicate.slt_iff_toNat (a := w) (b := 0#32) (by omega) (by decide)).mp h
  have h0 : (0#32 : BitVec 32).toNat = 0 := rfl
  rw [h0] at h2
  exact Nat.not_lt_zero _ h2

/-- Row `s` of the edge list, flattened, reads at `e` the word `(s, e)`. -/
theorem flatRow_apply (off : Fin 2 → Nat) (hs : S2x800000.Slices off S1x800000) (ei : IVec S2x800000 32)
    (s : Fin 2) (h0 : off 0 = s.val) (h1 : off 1 = 0) (e : Fin 800000) :
    shapeCast S800000 (extractStridedSlice S1x800000 off ei hs) shapeCasts_S1x800000_S800000 (ix1 e) = ei (ix2 s e) := by
  refine (shapeCast_1a_a_apply _ _ e).trans ?_
  refine extractStridedSlice_apply off ei hs _ (ix2 s e) fun a => ?_
  match a with
  | ⟨0, _⟩ => show s.val = off 0 + 0; omega
  | ⟨1, _⟩ => show e.val = off 1 + e.val; omega

/-- The index column of endpoint `s` reads, at edge `e`, the word `(s, e)` itself when that word is in range:
    it is not negative, so it is not moved. -/
theorem idxCol_apply (off : Fin 2 → Nat) (hs : S2x800000.Slices off S1x800000) (ei : IVec S2x800000 32)
    (s : Fin 2) (h0 : off 0 = s.val) (h1 : off 1 = 0) (e : Fin 800000) (hw : (ei (ix2 s e)).toNat < 50000) :
    RefTerm.idxCol off hs ei (ix2 e (0 : Fin 1)) = ei (ix2 s e) := by
  unfold RefTerm.idxCol
  refine (broadcastInDim_apply _ _ _ (ix2 e (0 : Fin 1)) (ix1 e) fun a => ?_).trans ?_
  · match a with
    | ⟨0, _⟩ =>
      show e.val = if (800000 : Nat) = 1 then 0 else e.val
      rw [if_neg (by decide)]
  · show Scalar.select (IntOp.cmpi .slt
        (shapeCast S800000 (extractStridedSlice S1x800000 off ei hs) shapeCasts_S1x800000_S800000 (ix1 e)) 0#32)
      (IntOp.addi (shapeCast S800000 (extractStridedSlice S1x800000 off ei hs) shapeCasts_S1x800000_S800000 (ix1 e)) 50000#32)
      (shapeCast S800000 (extractStridedSlice S1x800000 off ei hs) shapeCasts_S1x800000_S800000 (ix1 e)) = _
    rw [flatRow_apply off hs ei s h0 h1 e, slt_zero_of_small hw, select_zero]

/-- The gathered array of endpoint `s` reads, at `(e, k)`, entry `k` of the embedding row of the node the word `(s, e)` names. -/
theorem gathered_apply (emb : FVec Ideal S50000x128 .f32) (ei : IVec S2x800000 32) (off : Fin 2 → Nat)
    (hs : S2x800000.Slices off S1x800000) (s : Fin 2) (h0 : off 0 = s.val) (h1 : off 1 = 0) (e : Fin 800000) (k : Fin 128)
    (hw : (ei (ix2 s e)).toNat < 50000) :
    RefTerm.gathered (F := Ideal) emb ei off hs (ix2 e k) = emb (ix2 (Cert.Spec.node (ei (ix2 s e))) k) := by
  unfold RefTerm.gathered
  refine (Cert.RowGather.gather_rows_apply gather_S50000x128_S800000x1_S800000x128_1_0_n_n_0_1_1128 rfl rfl rfl rfl rfl rfl rfl
    emb (RefTerm.idxCol off hs ei) e k (by decide)).trans ?_
  refine congrArg emb (congrArg (fun r => ix2 r k) (Fin.ext ?_))
  show min (RefTerm.idxCol off hs ei (ix2 e (0 : Fin 1))).toInt.toNat (50000 - 1) = (Cert.Spec.node (ei (ix2 s e))).val
  rw [idxCol_apply off hs ei s h0 h1 e hw, Cert.Spec.node_val hw]
  have hi := StableHlo.Predicate.toInt_eq_toNat_of_lt (a := ei (ix2 s e)) (by omega)
  omega

/-- The square root, the exponential minus one and the quotient of arrays over the extended reals, read at an index. -/
theorem hostSqrt_apply {s : Shape} {φ : FTy} (x : FVec Ideal s φ) (i : s.Idx) : Host.sqrt x i = Ideal.sqrt (x i) := rfl
theorem hostExpm1_apply {s : Shape} {φ : FTy} (x : FVec Ideal s φ) (i : s.Idx) : Host.expm1 x i = Ideal.exp (x i) - 1 := rfl
theorem hostDivf_apply {s : Shape} {φ : FTy} (x y : FVec Ideal s φ) (i : s.Idx) : Host.divf x y i = Ideal.div (x i) (y i) := rfl

/-- A scalar constant laid over an array reads the constant's value everywhere. -/
theorem splat_apply {t : Shape} (h : S_.BroadcastsInDim t (![] : Fin 0 → Fin t.rank)) (c : BitVec 32) (i : t.Idx) :
    broadcastInDim t ![] h (constant (F := Ideal) S_ .f32 c) i = Ideal.ofBits .f32 c := rfl

/-- One linear layer read at `(e, j)`: the row `e` against column `j` of the transposed weight, plus the bias at `j`. -/
theorem linArr_apply (x : FVec Ideal S800000x128 .f32) (W : FVec Ideal S128x128 .f32) (b : FVec Ideal S128 .f32)
    (e : Fin 800000) (j : Fin 128) :
    RefTerm.linArr (F := Ideal) x W b (ix2 e j)
      = Cert.Spec.lin (Cert.Spec.mat (transpose S128x128 [1, 0] W transposes_S128x128_S128x128_1_0)) (Cert.Spec.vec b)
          (Cert.Spec.row x e) j := by
  unfold RefTerm.linArr
  rw [addf_apply,
    Cert.Layout.dotGeneral_plain_apply dot_S800000x128_S128x128_S800000x128_1_0_0_1_n_n rfl rfl rfl rfl rfl rfl none x
      (transpose S128x128 [1, 0] W transposes_S128x128_S128x128_1_0) e j,
    Cert.Layout.broadcastInDim_row_apply b bcast_S128_S1x128_1 bcast_S1x128_S800000x128_0_1 e j]
  rfl

/-- The unit written with the exponential's argument made zero where the entry is positive, read at `(e, j)`, is the
    exponential linear unit of the entry. -/
theorem eluArr_apply (h : FVec Ideal S800000x128 .f32) (e : Fin 800000) (j : Fin 128) :
    RefTerm.eluArr (F := Ideal) h (ix2 e j) = Cert.Spec.elu (h (ix2 e j)) := by
  rw [← Cert.Spec.elu_jax]
  unfold RefTerm.eluArr
  rw [select_apply, cmpf_apply, mulf_apply, hostExpm1_apply, select_apply, cmpf_apply, splat_apply, splat_apply,
    Ideal.cmpf_def, Ideal.ofBits_zero_f32, Cert.Fin.ofBits_one]
  by_cases hp : 0 < h (ix2 e j)
  · have hc : Ideal.cmp .ogt (h (ix2 e j)) 0 = 1#1 := by simp [Ideal.cmp, hp]
    rw [hc, select_one, if_pos hp]
  · have hc : Ideal.cmp .ogt (h (ix2 e j)) 0 = 0#1 := by simp [Ideal.cmp, hp]
    rw [hc, select_zero, select_zero, if_neg hp, if_neg hp]

/-- The sum of the entrywise products of two arrays' rows, read at `e`: the rows' inner product. -/
theorem dotArr_apply (f g : FVec Ideal S800000x128 .f32) (e : Fin 800000) :
    Host.reduceAdd (F := Ideal) (mulf f g) (constant (F := Ideal) S_ .f32 0x00000000#32)
        reducesTo_S800000x128_S800000_d1 h_S_ (ix1 e)
      = ∑ k : Fin 128, Cert.Spec.row f e k * Cert.Spec.row g e k := by
  rw [Cert.Layout.hostReduceAdd_rows (mulf f g) (constant (F := Ideal) S_ .f32 0x00000000#32)
    reducesTo_S800000x128_S800000_d1 h_S_ e, constant_apply, Ideal.ofBits_zero_f32, zero_add]
  rfl

/-- A row's clamped length, read at `e`. -/
theorem lenArr_apply (f : FVec Ideal S800000x128 .f32) (e : Fin 800000) :
    RefTerm.lenArr (F := Ideal) f (ix1 e) = Cert.Spec.nrm (Cert.Spec.row f e) := by
  unfold RefTerm.lenArr
  rw [maximumf_apply, hostSqrt_apply, dotArr_apply, splat_apply]
  rfl

/-- The perceptron on the gathered rows of endpoint `s`, read at `(e, j)`: entry `j` of the perceptron output of the
    node the word `(s, e)` names. -/
theorem featArr_apply (emb : FVec Ideal S50000x128 .f32) (ei : IVec S2x800000 32) (W1 : FVec Ideal S128x128 .f32)
    (b1 : FVec Ideal S128 .f32) (W2 : FVec Ideal S128x128 .f32) (b2 : FVec Ideal S128 .f32) (off : Fin 2 → Nat)
    (hs : S2x800000.Slices off S1x800000) (s : Fin 2) (h0 : off 0 = s.val) (h1 : off 1 = 0) (e : Fin 800000) (j : Fin 128)
    (hw : (ei (ix2 s e)).toNat < 50000) :
    RefTerm.featArr (F := Ideal) (RefTerm.gathered (F := Ideal) emb ei off hs) W1 b1 W2 b2 (ix2 e j)
      = Cert.Spec.feat emb ei (transpose S128x128 [1, 0] W1 transposes_S128x128_S128x128_1_0) b1
          (transpose S128x128 [1, 0] W2 transposes_S128x128_S128x128_1_0) b2 s e j := by
  unfold RefTerm.featArr
  rw [linArr_apply]
  have hrow : Cert.Spec.row (RefTerm.gathered (F := Ideal) emb ei off hs) e
      = Cert.Spec.row emb (Cert.Spec.node (ei (ix2 s e))) :=
    funext fun k => gathered_apply emb ei off hs s h0 h1 e k hw
  have hmid : Cert.Spec.row (RefTerm.eluArr (F := Ideal)
        (RefTerm.linArr (F := Ideal) (RefTerm.gathered (F := Ideal) emb ei off hs) W1 b1)) e
      = fun k => Cert.Spec.elu (Cert.Spec.lin (Cert.Spec.mat (transpose S128x128 [1, 0] W1 transposes_S128x128_S128x128_1_0))
          (Cert.Spec.vec b1) (Cert.Spec.row emb (Cert.Spec.node (ei (ix2 s e)))) k) :=
    funext fun k => by
      show RefTerm.eluArr (F := Ideal) _ (ix2 e k) = _
      rw [eluArr_apply, linArr_apply, hrow]
  rw [hmid]
  rfl

/-- So row `e` of that array is the whole perceptron output of that node. -/
theorem featArr_row (emb : FVec Ideal S50000x128 .f32) (ei : IVec S2x800000 32) (W1 : FVec Ideal S128x128 .f32)
    (b1 : FVec Ideal S128 .f32) (W2 : FVec Ideal S128x128 .f32) (b2 : FVec Ideal S128 .f32) (off : Fin 2 → Nat)
    (hs : S2x800000.Slices off S1x800000) (s : Fin 2) (h0 : off 0 = s.val) (h1 : off 1 = 0) (e : Fin 800000)
    (hw : (ei (ix2 s e)).toNat < 50000) :
    Cert.Spec.row (RefTerm.featArr (F := Ideal) (RefTerm.gathered (F := Ideal) emb ei off hs) W1 b1 W2 b2) e
      = Cert.Spec.feat emb ei (transpose S128x128 [1, 0] W1 transposes_S128x128_S128x128_1_0) b1
          (transpose S128x128 [1, 0] W2 transposes_S128x128_S128x128_1_0) b2 s e :=
  funext fun j => featArr_apply emb ei W1 b1 W2 b2 off hs s h0 h1 e j hw

theorem res_apply (emb : FVec Ideal S50000x128 .f32) (ei : IVec S2x800000 32) (W1 : FVec Ideal S128x128 .f32)
    (b1 : FVec Ideal S128 .f32) (W2 : FVec Ideal S128x128 .f32) (b2 : FVec Ideal S128 .f32)
    (hei : ∀ i, (ei i).toNat < 50000) (e : Fin 800000) :
    RefTerm.res (F := Ideal) emb ei W1 b1 W2 b2 (ix1 e)
      = Cert.Spec.rOut emb ei (transpose S128x128 [1, 0] W1 transposes_S128x128_S128x128_1_0) b1
          (transpose S128x128 [1, 0] W2 transposes_S128x128_S128x128_1_0) b2 (ix1 e) := by
  unfold RefTerm.res
  rw [hostDivf_apply, dotArr_apply, mulf_apply, lenArr_apply, lenArr_apply,
    featArr_row emb ei W1 b1 W2 b2 ![0, 0] slices_S2x800000_S1x800000_0_0 0 rfl rfl e (hei _),
    featArr_row emb ei W1 b1 W2 b2 ![1, 0] slices_S2x800000_S1x800000_1_0 1 rfl rfl e (hei _)]
  rfl

end Cert.ReferenceIdeal.RefRead

end
-- ==== Proof.PreFacts.lean ====
/-
  What the precondition says, element by element: every float input is a real number, and every entry of the edge
  list is a node index, `0 ≤ w < 50000`.
-/
import proofs.«429688_j28192165331244_4_alg».proof.Proof.Gen.Pre_finite_inputs
import proofs.«429688_j28192165331244_4_alg».proof.Proof.LibFinite
import Idealize.ShloMosaic.Lib.ReduceAll
import Idealize.ShloMosaic.Lib.StableHlo.Predicate

noncomputable section

namespace Cert.PreFacts

open Idealize.ShloMosaic Cert.Pre_finite_inputs Cert.Fin

/-- The scalar shape has one index. -/
instance : Subsingleton S_.Idx := ⟨fun a b => funext fun d => d.elim0⟩

/-- The word `0x7F800000` is plus infinity. -/
theorem top_word : Ideal.ofBits .f32 0x7F800000#32 = (⊤ : EReal) := by
  simp [Ideal.ofBits, Ideal.ieee]

/-- `|x| < +∞` says that `x` is a real number: `x ≤ |x|` excludes plus infinity, `-x ≤ |x|` excludes minus infinity. -/
theorem isFin_of_abs_lt_top (x : EReal)
    (h : Ideal.cmp .olt (max x (-x)) (Ideal.ofBits .f32 0x7F800000#32) = 1#1) : IsFin x := by
  rw [top_word] at h
  simp only [Ideal.cmp, StableHlo.Predicate.ofBool_eq_one_iff, decide_eq_true_eq] at h
  have h1 : x < ⊤ := lt_of_le_of_lt (le_max_left _ _) h
  have h2 : -x < ⊤ := lt_of_le_of_lt (le_max_right _ _) h
  refine isFin_of_ne h1.ne ?_
  rintro rfl
  simp at h2

/-- A 32-bit word that is signed-at-least 0 and signed-below 50000 has a value below 50000: a non-negative signed
    value is the unsigned value. -/
theorem toNat_lt_of_cmp (w : BitVec 32) (h1 : IntOp.cmpi .sge w 0#32 = 1#1) (h2 : IntOp.cmpi .slt w 50000#32 = 1#1) :
    w.toNat < 50000 := by
  unfold IntOp.cmpi at h1 h2
  simp only [StableHlo.Predicate.ofBool_eq_one_iff, BitVec.sle, BitVec.slt, decide_eq_true_eq] at h1 h2
  have e0 : (0#32 : BitVec 32).toInt = 0 := by decide
  have e5 : (50000#32 : BitVec 32).toInt = 50000 := by decide
  rw [e0] at h1; rw [e5] at h2
  have hlt := w.isLt
  rw [BitVec.toInt_eq_toNat_cond] at h1 h2
  split_ifs at h1 h2 with hc <;> omega

/-- `all(|x| < +∞)` over an array of any shape: every entry is a real number. -/
theorem allFin_of_all {s : Shape} {axes : List (Fin s.rank)} (x : FVec Ideal s .f32) (hb : S_.BroadcastsInDim s ![])
    (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : IsFin (x i) :=
  isFin_of_abs_lt_top (x i) (Host.reduce_andi_all _ _ hr hu ValueIdx.ix0 e i)

/-- `all((w ≥ 0) & (w < 50000))` over the edge list: every entry is below 50000. -/
theorem lt_of_all {s : Shape} {axes : List (Fin s.rank)} (x : IVec s 32) (hb : S_.BroadcastsInDim s ![])
    (hr : s.ReducesTo axes S_) (hu : 0 < S_.numel)
    (e : Host.reduce IntOp.andi
        (andi (cmpi .sge x (broadcastInDim s ![] hb (constantI S_ 32 0#32)))
          (cmpi .slt x (broadcastInDim s ![] hb (constantI S_ 32 50000#32))))
        (constantI S_ 1 1#1) hr hu ValueIdx.ix0 = 1#1) (i : s.Idx) : (x i).toNat < 50000 := by
  have hi := Host.reduce_andi_all _ _ hr hu ValueIdx.ix0 e i
  obtain ⟨h1, h2⟩ := IntOp.andi_eq_one.1 hi
  exact toNat_lt_of_cmp (x i) h1 h2

theorem of_pre (emb : FVec Ideal S50000x128 .f32) (ei : IVec S2x800000 32) (W1 : FVec Ideal S128x128 .f32)
    (b1 : FVec Ideal S128 .f32) (W2 : FVec Ideal S128x128 .f32) (b2 : FVec Ideal S128 .f32)
    (h : fn (F := Ideal) emb ei W1 b1 W2 b2 = fun _ => 1#1) :
    (∀ i, IsFin (emb i)) ∧ (∀ i, IsFin (W1 i)) ∧ (∀ i, IsFin (b1 i)) ∧ (∀ i, IsFin (W2 i)) ∧ (∀ i, IsFin (b2 i))
      ∧ (∀ i, (ei i).toNat < 50000) := by
  have h0 := congrFun h ValueIdx.ix0
  dsimp only [fn, fn_part1] at h0
  obtain ⟨h0, hei⟩ := IntOp.andi_eq_one.1 h0
  obtain ⟨h0, hb2⟩ := IntOp.andi_eq_one.1 h0
  obtain ⟨h0, hW2⟩ := IntOp.andi_eq_one.1 h0
  obtain ⟨h0, hb1⟩ := IntOp.andi_eq_one.1 h0
  obtain ⟨hemb, hW1⟩ := IntOp.andi_eq_one.1 h0
  exact ⟨allFin_of_all emb _ _ _ hemb, allFin_of_all W1 _ _ _ hW1, allFin_of_all b1 _ _ _ hb1,
    allFin_of_all W2 _ _ _ hW2, allFin_of_all b2 _ _ _ hb2, lt_of_all ei _ _ _ hei⟩

end Cert.PreFacts

end
-- ==== Proof.Bridge.lean ====
/-
  On finite inputs the two result functions are one: every node's perceptron output is a finite row, and on finite
  rows normalising before the inner product equals dividing the inner product by the product of the lengths.
-/
import proofs.«429688_j28192165331244_4_alg».proof.Proof.Spec
import proofs.«429688_j28192165331244_4_alg».proof.Proof.SpecLaws

noncomputable section

namespace Cert.Spec

open Idealize.ShloMosaic Idealize.ShloMosaic.ValueIdx Cert.Fin

/-- The perceptron output of any node is a finite row when the embedding, the weights and the biases are finite. -/
theorem isFin_feat {emb : (⟨2, ![50000, 128]⟩ : Shape).Idx → EReal} {ei : (⟨2, ![2, 800000]⟩ : Shape).Idx → BitVec 32}
    {A B : (⟨2, ![128, 128]⟩ : Shape).Idx → EReal} {a b : (⟨1, ![128]⟩ : Shape).Idx → EReal}
    (hemb : ∀ i, IsFin (emb i)) (hA : ∀ i, IsFin (A i)) (ha : ∀ i, IsFin (a i)) (hB : ∀ i, IsFin (B i))
    (hb : ∀ i, IsFin (b i)) (s : Fin 2) (e : Fin 800000) (j : Fin 128) : IsFin (feat emb ei A a B b s e j) :=
  isFin_mlp (fun _ _ => hA _) (fun _ => ha _) (fun _ _ => hB _) (fun _ => hb _) (fun _ => hemb _) j

/-- The kernel's and the reference's result functions agree on finite inputs. -/
theorem kOut_eq_rOut {emb : (⟨2, ![50000, 128]⟩ : Shape).Idx → EReal} {ei : (⟨2, ![2, 800000]⟩ : Shape).Idx → BitVec 32}
    {A B : (⟨2, ![128, 128]⟩ : Shape).Idx → EReal} {a b : (⟨1, ![128]⟩ : Shape).Idx → EReal}
    (hemb : ∀ i, IsFin (emb i)) (hA : ∀ i, IsFin (A i)) (ha : ∀ i, IsFin (a i)) (hB : ∀ i, IsFin (B i))
    (hb : ∀ i, IsFin (b i)) : kOut emb ei A a B b = rOut emb ei A a B b :=
  funext fun i => edge_eq (isFin_feat hemb hA ha hB hb 0 (i 0)) (isFin_feat hemb hA ha hB hb 1 (i 0))

end Cert.Spec

end
-- ==== Proof.lean ====
/-
  The certificate of the edge-similarity kernel against its reference, over the extended reals.

  The kernel builds, in a first tiled region, a table with one row per node: the node's embedding through a two-layer
  perceptron (linear, exponential linear unit, linear), divided by the row's Euclidean length clamped from below.  It
  then takes, for every edge, the table rows of the two endpoints and, in a second tiled region, their inner product.
  The reference runs the perceptron on the gathered embeddings of the two endpoints and divides their inner product by
  the product of the two clamped lengths.  The perceptron acts row by row, so it commutes with taking rows; and for
  finite rows `Σₖ (uₖ / |u|)(vₖ / |v|) = (Σₖ uₖ vₖ) / (|u| |v|)`, the lengths being positive real numbers.  The
  precondition gives both: every float input is finite, and every entry of the edge list is a node index
  `0 ≤ w < 50000` (outside that range the kernel's take fills a row with a not-a-number while the reference's
  indexing clamps, so the two programs differ there).

  The frames of the two kernel programs are the generated ones; the reference's frame is its run (module RRun) with the
  result dropped; the ideal pass rewrote nothing, so there is nothing to preserve.  For the algebraic claim the kernel's
  run names its result (module KRun), the result is read back through the two regions and the host operations between
  them to `Spec.kOut` (modules KHost, KTable, KTake, KCos, KValue), the reference's term is read at an edge to
  `Spec.rOut` (module RRead), and the two agree (modules SpecLaws, Bridge).
-/
import proofs.«429688_j28192165331244_4_alg».proof.Defs
import proofs.«429688_j28192165331244_4_alg».proof.Proof.Gen.Kernel
import proofs.«429688_j28192165331244_4_alg».proof.Proof.Gen.Kernel.Frame
import proofs.«429688_j28192165331244_4_alg».proof.Proof.Gen.KernelIdeal
import proofs.«429688_j28192165331244_4_alg».proof.Proof.Gen.KernelIdeal.Frame
import proofs.«429688_j28192165331244_4_alg».proof.Proof.Gen.ReferenceIdeal
import proofs.«429688_j28192165331244_4_alg».proof.Proof.Gen.Pre_finite_inputs
import proofs.«429688_j28192165331244_4_alg».proof.Proof.KRun
import proofs.«429688_j28192165331244_4_alg».proof.Proof.KValue
import proofs.«429688_j28192165331244_4_alg».proof.Proof.RRun
import proofs.«429688_j28192165331244_4_alg».proof.Proof.RRead
import proofs.«429688_j28192165331244_4_alg».proof.Proof.PreFacts
import proofs.«429688_j28192165331244_4_alg».proof.Proof.Bridge
import Idealize.ShloMosaic.Adequacy
import Idealize.ShloMosaic.Init

noncomputable section

namespace Cert.Proof

open Idealize.ShloMosaic Idealize.ShloMosaic.TcCoe Idealize.ShloMosaic.ValueIdx Idealize.SL.Sem Cert.Fin

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end at `Spec.kOut` of the kernel's arguments: the kernel by its value, the reference by its term read
    at every edge, the arguments' agreement, and the law on finite rows. -/
theorem algebraic : Cert.algebraic_KernelIdeal_ReferenceIdeal := by
  intro m ρ m' ρ' hpre hagree
  refine ⟨fun c => Cert.Spec.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (transpose Cert.KernelIdeal.S128x128 [1, 0] (m ((c.tc : Thread Cert.KernelIdeal.nD Cert.KernelIdeal.τ).loc Cert.KernelIdeal.main_arg2) : FVec Ideal Cert.KernelIdeal.S128x128 .f32) Cert.KernelIdeal.Facts₀.transposes_S128x128_S128x128_1_0)
      (m ((c.tc : Thread Cert.KernelIdeal.nD Cert.KernelIdeal.τ).loc Cert.KernelIdeal.main_arg3))
      (transpose Cert.KernelIdeal.S128x128 [1, 0] (m ((c.tc : Thread Cert.KernelIdeal.nD Cert.KernelIdeal.τ).loc Cert.KernelIdeal.main_arg4) : FVec Ideal Cert.KernelIdeal.S128x128 .f32) Cert.KernelIdeal.Facts₀.transposes_S128x128_S128x128_1_0)
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.ValueRun.run_value (F := Ideal) m ρ)
    exact Cert.KernelIdeal.Value.value m ρ c (Cert.PreFacts.of_pre _ _ _ _ _ _ (hpre c)).2.2.2.2.2
  · refine (θ_run Cert.ReferenceIdeal.defs _ _).mono (fun r h c => ⟨(h c).1.trans ?_, (h c).2⟩)
      (Cert.ReferenceIdeal.RefRun.run (F := Ideal) m' ρ')
    obtain ⟨hemb, hW1, hb1, hW2, hb2, hei⟩ := Cert.PreFacts.of_pre _ _ _ _ _ _ (hpre c)
    obtain ⟨e0, e1, e2, e3, e4, e5⟩ := hagree c
    rw [e0, e1, e2, e3, e4, e5]
    refine Eq.trans (funext fun i => ?_) (Cert.Spec.kOut_eq_rOut hemb (allFin_transpose _ _ hW1) hb1 (allFin_transpose _ _ hW2) hb2).symm
    obtain ⟨e, rfl⟩ : ∃ e : Fin 800000, i = ix1 e := ⟨i 0, eq_ix1 i⟩
    exact Cert.ReferenceIdeal.RefRead.res_apply _ _ _ _ _ _ hei e

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
